-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S1 : Shape := ⟨1, ![1]⟩
abbrev S128x64 : Shape := ⟨2, ![128, 64]⟩
abbrev S128 : Shape := ⟨1, ![128]⟩
abbrev S131072x128 : Shape := ⟨2, ![131072, 128]⟩
abbrev S131072x6 : Shape := ⟨2, ![131072, 6]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel
  bcast_S_S1 : S_.BroadcastsInDim S1 (![] : Fin 0 → Fin S1.rank)
  reducesTo_S1_S_d0 : S1.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S131072x128 : S_.BroadcastsInDim S131072x128 (![] : Fin 0 → Fin S131072x128.rank)
  reducesTo_S131072x128_S_d0_1 : S131072x128.ReducesTo [0, 1] S_
  bcast_S_S131072x6 : S_.BroadcastsInDim S131072x6 (![] : Fin 0 → Fin S131072x6.rank)
  reducesTo_S131072x6_S_d0_1 : S131072x6.ReducesTo [0, 1] S_
  reducesTo_S_S_d : S_.ReducesTo [] S_

variable [Facts]

def fn_part1 {F : FTy → Type} [FloatOps F] (main_arg4 : FVec F S131072x128 .f32) (main_arg5 : FVec F S131072x6 .f32) (main_arg6 : FVec F S_ .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S131072x128 .f32 := Host.absf main_arg4
  let main_cst_6 : FVec F S_ .f32 := constant S_ .f32 0x7F800000#32
  let main_v20 : FVec F S131072x128 .f32 := broadcastInDim S131072x128 ![] bcast_S_S131072x128 main_cst_6
  let main_v21 : IVec S131072x128 1 := cmpf .olt main_v19 main_v20
  let main_c_7 : IVec S_ 1 := constantI S_ 1 1#1
  let main_v22 : IVec S_ 1 := (fun x v => Host.reduce IntOp.andi x v reducesTo_S131072x128_S_d0_1 h_S_) main_v21 main_c_7
  let main_v23 : IVec S_ 1 := andi main_v18 main_v22
  let main_v24 : FVec F S131072x6 .f32 := Host.absf main_arg5
  let main_cst_8 : FVec F S_ .f32 := constant S_ .f32 0x7F800000#32
  let main_v25 : FVec F S131072x6 .f32 := broadcastInDim S131072x6 ![] bcast_S_S131072x6 main_cst_8
  let main_v26 : IVec S131072x6 1 := cmpf .olt main_v24 main_v25
  let main_c_9 : IVec S_ 1 := constantI S_ 1 1#1
  let main_v27 : IVec S_ 1 := (fun x v => Host.reduce IntOp.andi x v reducesTo_S131072x6_S_d0_1 h_S_) main_v26 main_c_9
  let main_v28 : IVec S_ 1 := andi main_v23 main_v27
  let main_v29 : FVec F S_ .f32 := Host.absf main_arg6
  let main_cst_10 : FVec F S_ .f32 := constant S_ .f32 0x7F800000#32
  let main_v30 : IVec S_ 1 := cmpf .olt main_v29 main_cst_10
  let main_c_11 : IVec S_ 1 := constantI S_ 1 1#1
  let main_v31 : IVec S_ 1 := (fun x v => Host.reduce IntOp.andi x v reducesTo_S_S_d h_S_) main_v30 main_c_11
  let main_v32 : IVec S_ 1 := andi main_v28 main_v31
  main_v32

def fn {F : FTy → Type} [FloatOps F] (main_arg0 : FVec F S2048x64 .f32) (main_arg1 : FVec F S1 .f32) (main_arg2 : FVec F S128x64 .f32) (main_arg3 : FVec F S128 .f32) (main_arg4 : FVec F S131072x128 .f32) (main_arg5 : FVec F S131072x6 .f32) (main_arg6 : FVec F S_ .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S2048x64 : Shape := ⟨2, ![2048, 64]⟩
abbrev S1 : Shape := ⟨1, ![1]⟩
abbrev S128x64 : Shape := ⟨2, ![128, 64]⟩
abbrev S128 : Shape := ⟨1, ![128]⟩
abbrev S131072x128 : Shape := ⟨2, ![131072, 128]⟩
abbrev S131072x6 : Shape := ⟨2, ![131072, 6]⟩
abbrev S_ : Shape := ⟨0, ![]⟩
abbrev S64x128 : Shape := ⟨2, ![64, 128]⟩
abbrev S2048x128 : Shape := ⟨2, ![2048, 128]⟩
abbrev S1x128 : Shape := ⟨2, ![1, 128]⟩
abbrev S131072 : Shape := ⟨1, ![131072]⟩
abbrev S1x131072 : Shape := ⟨2, ![1, 131072]⟩
abbrev S131072x1 : Shape := ⟨2, ![131072, 1]⟩
abbrev S131072x7 : Shape := ⟨2, ![131072, 7]⟩
abbrev S7x131072 : Shape := ⟨2, ![7, 131072]⟩
abbrev S2048x6 : Shape := ⟨2, ![2048, 6]⟩
abbrev S1024x128 : Shape := ⟨2, ![1024, 128]⟩
abbrev S1x1024 : Shape := ⟨2, ![1, 1024]⟩
abbrev S7x1024 : Shape := ⟨2, ![7, 1024]⟩
abbrev S1024x6 : Shape := ⟨2, ![1024, 6]⟩
abbrev S1024x1 : Shape := ⟨2, ![1024, 1]⟩
abbrev S1024x7 : Shape := ⟨2, ![1024, 7]⟩
abbrev S1024x1024 : Shape := ⟨2, ![1024, 1024]⟩
abbrev S1024 : Shape := ⟨1, ![1024]⟩

abbrev nBuf : Space → Nat
  | .hbm => 37
  | .vmem => 14
  | .smem => 0
  | _ => 0

abbrev bufTy : (tb : Table) → Fin (tcTables nBuf tb) → BufTy
  | .hbm, ⟨0, _⟩ => ⟨S2048x64, .f32⟩
  | .hbm, ⟨1, _⟩ => ⟨S1, .f32⟩
  | .hbm, ⟨2, _⟩ => ⟨S128x64, .f32⟩
  | .hbm, ⟨3, _⟩ => ⟨S128, .f32⟩
  | .hbm, ⟨4, _⟩ => ⟨S131072x128, .f32⟩
  | .hbm, ⟨5, _⟩ => ⟨S131072x6, .f32⟩
  | .hbm, ⟨6, _⟩ => ⟨S_, .f32⟩
  | .hbm, ⟨7, _⟩ => ⟨S64x128, .f32⟩
  | .hbm, ⟨8, _⟩ => ⟨S2048x128, .f32⟩
  | .hbm, ⟨9, _⟩ => ⟨S1x128, .f32⟩
  | .hbm, ⟨10, _⟩ => ⟨S2048x128, .f32⟩
  | .hbm, ⟨11, _⟩ => ⟨S2048x128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S2048x128, .f32⟩
  | .hbm, ⟨18, _⟩ => ⟨S2048x128, .f32⟩
  | .hbm, ⟨19, _⟩ => ⟨S2048x128, .bf16⟩
  | .hbm, ⟨20, _⟩ => ⟨S2048x128, .f32⟩
  | .hbm, ⟨21, _⟩ => ⟨S2048x128, .f32⟩
  | .hbm, ⟨22, _⟩ => ⟨S2048x128, .bf16⟩
  | .hbm, ⟨23, _⟩ => ⟨S131072x128, .f32⟩
  | .hbm, ⟨24, _⟩ => ⟨S_, .f32⟩
  | .hbm, ⟨25, _⟩ => ⟨S131072, .f32⟩
  | .hbm, ⟨26, _⟩ => ⟨S1x131072, .f32⟩
  | .hbm, ⟨27, _⟩ => ⟨S1x131072, .f32⟩
  | .hbm, ⟨28, _⟩ => ⟨S1x131072, .f32⟩
  | .hbm, ⟨29, _⟩ => ⟨S131072x128, .bf16⟩
  | .hbm, ⟨30, _⟩ => ⟨S_, .f32⟩
  | .hbm, ⟨31, _⟩ => ⟨S131072x1, .f32⟩
  | .hbm, ⟨32, _⟩ => ⟨S131072x7, .f32⟩
  | .hbm, ⟨33, _⟩ => ⟨S7x131072, .f32⟩
  | .hbm, ⟨34, _⟩ => ⟨S7x131072, .bf16⟩
  | .hbm, ⟨35, _⟩ => ⟨S2048x6, .f32⟩
  | .hbm, ⟨36, _⟩ => ⟨S2048x6, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1x1024, .f32⟩
  | .local _ .vmem, ⟨5, _⟩ => ⟨S1x1024, .f32⟩
  | .local _ .vmem, ⟨6, _⟩ => ⟨S1024x128, .bf16⟩
  | .local _ .vmem, ⟨7, _⟩ => ⟨S1024x128, .bf16⟩
  | .local _ .vmem, ⟨8, _⟩ => ⟨S7x1024, .bf16⟩
  | .local _ .vmem, ⟨9, _⟩ => ⟨S7x1024, .bf16⟩
  | .local _ .vmem, ⟨10, _⟩ => ⟨S1024x6, .f32⟩
  | .local _ .vmem, ⟨11, _⟩ => ⟨S1024x6, .f32⟩
  | .local _ .vmem, ⟨12, _⟩ => ⟨S1024x1, .f32⟩
  | .local _ .vmem, ⟨13, _⟩ => ⟨S1024x7, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 128], ![false, false]⟩

def k0_cond2 (i : grid0.Coords) : BitVec 1 :=
  let arg1 : BitVec 32 := BitVec.ofNat 32 (i 1).val
  let c127_i32 : BitVec 32 := 127#32
  let v39 : BitVec 1 := Scalar.cmpi .eq arg1 c127_i32
  let v40 : BitVec 32 := Scalar.extui v39
  let c0_i32_21 : BitVec 32 := 0#32
  let v41 : BitVec 1 := Scalar.cmpi .ne v40 c0_i32_21
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S7x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x6 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  transposes_S128x64_S64x128_1_0 : S128x64.Transposes [1, 0] S64x128
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  bcast_S_S2048x128 : S_.BroadcastsInDim S2048x128 (![] : Fin 0 → Fin S2048x128.rank)
  bitsLt_bf16_f32 : FTy.bits .bf16 < FTy.bits .f32
  reducesTo_S131072x128_S131072_d1 : S131072x128.ReducesTo [1] S131072
  h_S_ : 0 < S_.numel
  bcast_S131072_S1x131072_1 : S131072.BroadcastsInDim S1x131072 (![1] : Fin 1 → Fin S1x131072.rank)
  bcast_S_S1x131072 : S_.BroadcastsInDim S1x131072 (![] : Fin 0 → Fin S1x131072.rank)
  bcast_S_S131072x1 : S_.BroadcastsInDim S131072x1 (![] : Fin 0 → Fin S131072x1.rank)
  concatenates_S131072x6_S131072x1_S131072x7_d1 : Shape.Concatenates [S131072x6, S131072x1] S131072x7 1
  transposes_S131072x7_S7x131072_1_0 : S131072x7.Transposes [1, 0] S7x131072
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x7_S1024x7_0_0 : ∀ a, (![0, 0] : Fin 2 → Nat) a + S1024x7.size a ≤ S1024x7.size a
  h_S1024x7 : 0 < S1024x7.numel
  shapeCasts_S1024x7_S1024x7 : S1024x7.ShapeCasts S1024x7
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  inb_S7x1024_S7x1024_0_0 : ∀ a, (![0, 0] : Fin 2 → Nat) a + S7x1024.size a ≤ S7x1024.size a
  h_S7x1024 : 0 < S7x1024.numel
  shapeCasts_S7x1024_S7x1024 : S7x1024.ShapeCasts S7x1024
  broadcasts_S1024x1_S1024x7 : S1024x1.Broadcasts S1024x7
  slices_S1024x7_o0_0_S1024x6 : S1024x7.Slices ![0, 0] S1024x6
  slices_S1024x7_o0_6_S1024x1 : S1024x7.Slices ![0, 6] S1024x1
  broadcasts_S1024x1_S1024x6 : S1024x1.Broadcasts S1024x6
  inb_S1024x6_S1024x6_0_0 : ∀ a, (![0, 0] : Fin 2 → Nat) a + S1024x6.size a ≤ S1024x6.size a
  h_S1024x6 : 0 < S1024x6.numel
  bcast_S1_S2048x6_1 : S1.BroadcastsInDim S2048x6 (![1] : Fin 1 → Fin S2048x6.rank)
  dot_S2048x64_S64x128_S2048x128_1_0_0_1_n_n_wf : DotDims.WF S2048x64 S64x128 S2048x128 [1] [0] [0] [1] [] []
  dot_S1024x128_S1024x128_S1024x1024_1_1_0_0_n_n_wf : DotDims.WF S1024x128 S1024x128 S1024x1024 [1] [1] [0] [0] [] []
  dot_S1024x1024_S7x1024_S1024x7_1_1_0_0_n_n_wf : DotDims.WF S1024x1024 S7x1024 S1024x7 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S2048x128.size a
  hwx0_0 : ∀ i : grid0.Coords, EltTy.bits .bf16 = 32 ∨ (Rect.block (s := S2048x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S2048x128.size a
  hwx0_1 : ∀ i : grid0.Coords, EltTy.bits .bf16 = 32 ∨ (Rect.block (s := S2048x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x131072.size a
  hwx0_2 : ∀ i : grid0.Coords, EltTy.bits .f32 = 32 ∨ (Rect.block (s := S1x131072) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S131072x128.size a
  hwx0_3 : ∀ i : grid0.Coords, EltTy.bits .bf16 = 32 ∨ (Rect.block (s := S131072x128) S1024x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S7x1024.size a ≤ S7x131072.size a
  hwx0_4 : ∀ i : grid0.Coords, EltTy.bits .bf16 = 32 ∨ (Rect.block (s := S7x131072) S7x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x6.size a ≤ S2048x6.size a
  hwx0_5 : ∀ i : grid0.Coords, EltTy.bits .f32 = 32 ∨ (Rect.block (s := S2048x6) S1024x6.size (cc0_transform_5 i) (hinb0_5 i)).WholeWords (EltTy.packing .f32)

variable [Facts₀]

def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf
def dot_S1024x1024_S7x1024_S1024x7_1_1_0_0_n_n : DotDims S1024x1024 S7x1024 S1024x7 where
  lhsContracting := [1]
  rhsContracting := [1]
  lhsNonContracting := [0]
  rhsNonContracting := [0]
  lhsBatch := []
  rhsBatch := []
  wf := dot_S1024x1024_S7x1024_S1024x7_1_1_0_0_n_n_wf

abbrev win0_0 : Pipeline.Window sig grid0 :=
  Pipeline.Window.ofSpec (Memref.whole main_v10) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v23) S7x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1024x6.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2048x64 : Shape := ⟨2, ![2048, 64]⟩
abbrev S1 : Shape := ⟨1, ![1]⟩
abbrev S128x64 : Shape := ⟨2, ![128, 64]⟩
abbrev S128 : Shape := ⟨1, ![128]⟩
abbrev S131072x128 : Shape := ⟨2, ![131072, 128]⟩
abbrev S131072x6 : Shape := ⟨2, ![131072, 6]⟩
abbrev S_ : Shape := ⟨0, ![]⟩
abbrev S64x128 : Shape := ⟨2, ![64, 128]⟩
abbrev S2048x128 : Shape := ⟨2, ![2048, 128]⟩
abbrev S1x128 : Shape := ⟨2, ![1, 128]⟩
abbrev S2048 : Shape := ⟨1, ![2048]⟩
abbrev S2048x1 : Shape := ⟨2, ![2048, 1]⟩
abbrev S131072 : Shape := ⟨1, ![131072]⟩
abbrev S128x131072 : Shape := ⟨2, ![128, 131072]⟩
abbrev S2048x131072 : Shape := ⟨2, ![2048, 131072]⟩
abbrev S1x131072 : Shape := ⟨2, ![1, 131072]⟩
abbrev S2048x6 : Shape := ⟨2, ![2048, 6]⟩

abbrev nBuf : Space → Nat
  | .hbm => 53
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S1, .f32⟩
  | .hbm, ⟨2, _⟩ => ⟨S128x64, .f32⟩
  | .hbm, ⟨3, _⟩ => ⟨S128, .f32⟩
  | .hbm, ⟨4, _⟩ => ⟨S131072x128, .f32⟩
  | .hbm, ⟨5, _⟩ => ⟨S131072x6, .f32⟩
  | .hbm, ⟨6, _⟩ => ⟨S_, .f32⟩
  | .hbm, ⟨7, _⟩ => ⟨S64x128, .f32⟩
  | .hbm, ⟨8, _⟩ => ⟨S2048x128, .f32⟩
  | .hbm, ⟨9, _⟩ => ⟨S1x128, .f32⟩
  | .hbm, ⟨10, _⟩ => ⟨S2048x128, .f32⟩
  | .hbm, ⟨11, _⟩ => ⟨S2048x128, .f32⟩
  | .hbm, ⟨12, _⟩ => ⟨S2048x128, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S131072x128, .f32⟩
  | .hbm, ⟨17, _⟩ => ⟨S_, .f32⟩
  | .hbm, ⟨18, _⟩ => ⟨S131072, .f32⟩
  | .hbm, ⟨19, _⟩ => ⟨S128x131072, .f32⟩
  | .hbm, ⟨20, _⟩ => ⟨S2048x131072, .f32⟩
  | .hbm, ⟨21, _⟩ => ⟨S_, .f32⟩
  | .hbm, ⟨22, _⟩ => ⟨S2048x131072, .f32⟩
  | .hbm, ⟨23, _⟩ => ⟨S2048x131072, .f32⟩
  | .hbm, ⟨24, _⟩ => ⟨S2048x131072, .f32⟩
  | .hbm, ⟨25, _⟩ => ⟨S2048x131072, .f32⟩
  | .hbm, ⟨26, _⟩ => ⟨S1x131072, .f32⟩
  | .hbm, ⟨27, _⟩ => ⟨S2048x131072, .f32⟩
  | .hbm, ⟨28, _⟩ => ⟨S2048x131072, .f32⟩
  | .hbm, ⟨29, _⟩ => ⟨S_, .f32⟩
  | .hbm, ⟨30, _⟩ => ⟨S2048x131072, .f32⟩
  | .hbm, ⟨31, _⟩ => ⟨S2048x131072, .f32⟩
  | .hbm, ⟨32, _⟩ => ⟨S_, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S2048x1, .f32⟩
  | .hbm, ⟨38, _⟩ => ⟨S2048x131072, .f32⟩
  | .hbm, ⟨39, _⟩ => ⟨S2048x131072, .f32⟩
  | .hbm, ⟨40, _⟩ => ⟨S2048x131072, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S2048x131072, .f32⟩
  | .hbm, ⟨45, _⟩ => ⟨S2048x131072, .f32⟩
  | .hbm, ⟨46, _⟩ => ⟨S2048x6, .f32⟩
  | .hbm, ⟨47, _⟩ => ⟨S2048x6, .f32⟩
  | .hbm, ⟨48, _⟩ => ⟨S_, .f32⟩
  | .hbm, ⟨49, _⟩ => ⟨S2048x6, .f32⟩
  | .hbm, ⟨50, _⟩ => ⟨S_, .f32⟩
  | .hbm, ⟨51, _⟩ => ⟨S2048x6, .f32⟩
  | .hbm, ⟨52, _⟩ => ⟨S2048x6, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]

class Facts₀ : Prop where
  transposes_S128x64_S64x128_1_0 : S128x64.Transposes [1, 0] S64x128
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  reducesTo_S2048x128_S2048_d1 : S2048x128.ReducesTo [1] S2048
  h_S_ : 0 < S_.numel
  bcast_S2048_S2048x1_0 : S2048.BroadcastsInDim S2048x1 (![0] : Fin 1 → Fin S2048x1.rank)
  reducesTo_S131072x128_S131072_d1 : S131072x128.ReducesTo [1] S131072
  transposes_S131072x128_S128x131072_1_0 : S131072x128.Transposes [1, 0] S128x131072
  bcast_S_S2048x131072 : S_.BroadcastsInDim S2048x131072 (![] : Fin 0 → Fin S2048x131072.rank)
  bcast_S2048x1_S2048x131072_0_1 : S2048x1.BroadcastsInDim S2048x131072 (![0, 1] : Fin 2 → Fin S2048x131072.rank)
  bcast_S131072_S1x131072_1 : S131072.BroadcastsInDim S1x131072 (![1] : Fin 1 → Fin S1x131072.rank)
  bcast_S1x131072_S2048x131072_0_1 : S1x131072.BroadcastsInDim S2048x131072 (![0, 1] : Fin 2 → Fin S2048x131072.rank)
  reducesTo_S2048x131072_S2048_d1 : S2048x131072.ReducesTo [1] S2048
  bcast_S_S2048 : S_.BroadcastsInDim S2048 (![] : Fin 0 → Fin S2048.rank)
  bcast_S_S2048x6 : S_.BroadcastsInDim S2048x6 (![] : Fin 0 → Fin S2048x6.rank)
  shapeCasts_S1_S_ : S1.ShapeCasts S_
  dot_S2048x64_S64x128_S2048x128_1_0_0_1_n_n_wf : DotDims.WF S2048x64 S64x128 S2048x128 [1] [0] [0] [1] [] []
  dot_S2048x128_S128x131072_S2048x131072_1_0_0_1_n_n_wf : DotDims.WF S2048x128 S128x131072 S2048x131072 [1] [0] [0] [1] [] []
  dot_S2048x131072_S131072x6_S2048x6_1_0_0_1_n_n_wf : DotDims.WF S2048x131072 S131072x6 S2048x6 [1] [0] [0] [1] [] []

variable [Facts₀]

def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def dot_S2048x128_S128x131072_S2048x131072_1_0_0_1_n_n : DotDims S2048x128 S128x131072 S2048x131072 where
  lhsContracting := [1]
  rhsContracting := [0]
  lhsNonContracting := [0]
  rhsNonContracting := [1]
  lhsBatch := []
  rhsBatch := []
  wf := dot_S2048x128_S128x131072_S2048x131072_1_0_0_1_n_n_wf
def dot_S2048x131072_S131072x6_S2048x6_1_0_0_1_n_n : DotDims S2048x131072 S131072x6 S2048x6 where
  lhsContracting := [1]
  rhsContracting := [0]
  lhsNonContracting := [0]
  rhsNonContracting := [1]
  lhsBatch := []
  rhsBatch := []
  wf := dot_S2048x131072_S131072x6_S2048x6_1_0_0_1_n_n_wf

class Facts : Prop extends Facts₀ where

variable [Facts]
-- ==== Proof.OnlineDefs.lean ====
/-
  The blockwise ("online") softmax over the reals: the definitions.

  A row of scores s 0, s 1, ... is cut into blocks of 1024.  Going through the blocks one keeps a running maximum
  and a running weighted sum, rescaling the sum whenever the maximum grows:
      M_0 = max of block 0,                       A_0 = sum over block 0 of exp (s n - M_0) * v n,
      M_(c+1) = max (M_c) (max of block c+1),     A_(c+1) = exp (M_c - M_(c+1)) * A_c + sum over block c+1 of exp (s n - M_(c+1)) * v n.
-/
import Mathlib.Analysis.SpecialFunctions.Exp
import Mathlib.Algebra.BigOperators.Fin
import Mathlib.Order.Fin.Basic

noncomputable section

open scoped BigOperators

namespace Cert.OnlineSoftmax

/-- The maximum of block c of the scores. -/
def blockMax (s : ℕ → ℝ) (c : ℕ) : ℝ :=
  Finset.univ.sup' Finset.univ_nonempty (fun l : Fin 1024 => s (c * 1024 + l.val))

/-- The running maximum after block c. -/
def runMax (s : ℕ → ℝ) : ℕ → ℝ
  | 0 => blockMax s 0
  | c + 1 => max (runMax s c) (blockMax s (c + 1))

/-- Block c's weighted sum of exponentials, shifted by M. -/
def blockSum (s v : ℕ → ℝ) (M : ℝ) (c : ℕ) : ℝ :=
  ∑ l : Fin 1024, Real.exp (s (c * 1024 + l.val) - M) * v (c * 1024 + l.val)

/-- The running weighted sum after block c, always shifted by the running maximum. -/
def runAcc (s v : ℕ → ℝ) : ℕ → ℝ
  | 0 => blockSum s v (runMax s 0) 0
  | c + 1 => Real.exp (runMax s c - runMax s (c + 1)) * runAcc s v c + blockSum s v (runMax s (c + 1)) (c + 1)

/-- The maximum of all 131072 entries of a row. -/
def rowMax (w : ℕ → ℝ) : ℝ :=
  Finset.univ.sup' Finset.univ_nonempty (fun n : Fin 131072 => w n.val)

end Cert.OnlineSoftmax

end
-- ==== Proof.Spec.lean ====
/-
  The result of the kernel and of its reference as ONE real-valued function of real input arrays.

  Under the precondition every input entry is a real number.  With h = obs * W^T + b (a 2048 x 128 array), e = exp log_temp:
    the kernel scores row r against memory slot n by    score r n = sum_k (h r k * (2 * (1/e))) * keys n k + sum_k 0 * keys n k - ksq n * (1/e),
    the reference by                                    wref  r n = ((2 * sum_k h r k * keys n k - sum_k h r k ^ 2) - ksq n) / e,
  where ksq n = sum_k keys n k ^ 2.  The two differ by the row constant (sum_k h r k ^ 2) / e, which a softmax does not see.
  The kernel's seventh value column is the constant 1, so that its running sum of that column is the softmax normaliser.
-/
import Idealize.ShloMosaic.Lib.ValueIdx
import proofs.«403143_j42399917146658_3_alg».proof.Proof.OnlineDefs

noncomputable section

open scoped BigOperators

namespace Cert.Spec

open Idealize.ShloMosaic Idealize.ShloMosaic.ValueIdx Cert.OnlineSoftmax

/-- Real input arrays, indexed by natural-number coordinates. -/
structure RealIn where
  obs : ℕ → ℕ → ℝ
  std : ℝ
  W : ℕ → ℕ → ℝ
  b : ℕ → ℝ
  keys : ℕ → ℕ → ℝ
  vals : ℕ → ℕ → ℝ
  lt : ℝ

/-- A rank-2 array of extended reals is the real array f. -/
def IsReal2 {A B : ℕ} (x : (⟨2, ![A, B]⟩ : Shape).Idx → EReal) (f : ℕ → ℕ → ℝ) : Prop :=
  ∀ i, x i = ((f (i 0).val (i 1).val : ℝ) : EReal)
/-- A rank-1 array of extended reals is the real array f. -/
def IsReal1 {A : ℕ} (x : (⟨1, ![A]⟩ : Shape).Idx → EReal) (f : ℕ → ℝ) : Prop :=
  ∀ i, x i = ((f (i 0).val : ℝ) : EReal)
/-- A rank-0 array of extended reals is the real number a. -/
def IsReal0 (x : (⟨0, ![]⟩ : Shape).Idx → EReal) (a : ℝ) : Prop :=
  ∀ i, x i = (a : EReal)

/-- The seven argument arrays are the real arrays of R. -/
structure ArgsReal (R : RealIn)
    (a0 : (⟨2, ![2048, 64]⟩ : Shape).Idx → EReal) (a1 : (⟨1, ![1]⟩ : Shape).Idx → EReal)
    (a2 : (⟨2, ![128, 64]⟩ : Shape).Idx → EReal) (a3 : (⟨1, ![128]⟩ : Shape).Idx → EReal)
    (a4 : (⟨2, ![131072, 128]⟩ : Shape).Idx → EReal) (a5 : (⟨2, ![131072, 6]⟩ : Shape).Idx → EReal)
    (a6 : (⟨0, ![]⟩ : Shape).Idx → EReal) : Prop where
  obs : IsReal2 a0 R.obs
  std : ∀ i, a1 i = ((R.std : ℝ) : EReal)
  W : IsReal2 a2 R.W
  b : IsReal1 a3 R.b
  keys : IsReal2 a4 R.keys
  vals : IsReal2 a5 R.vals
  lt : IsReal0 a6 R.lt

/-- The predictor layer: h = obs * W^T + b. -/
def h (R : RealIn) (r k : ℕ) : ℝ := ∑ j : Fin 64, R.obs r j.val * R.W k j.val + R.b k
/-- The inverse temperature 1 / exp log_temp. -/
def it (R : RealIn) : ℝ := 1 / Real.exp R.lt
/-- h scaled by 2 / temperature. -/
def hs (R : RealIn) (r k : ℕ) : ℝ := h R r k * (2 * it R)
/-- The squared norm of key n. -/
def ksq (R : RealIn) (n : ℕ) : ℝ := ∑ k : Fin 128, R.keys n k.val * R.keys n k.val
/-- The kernel's score of row r against slot n (the residual term of the split of hs is zero). -/
def score (R : RealIn) (r n : ℕ) : ℝ :=
  (∑ k : Fin 128, hs R r k.val * R.keys n k.val + ∑ k : Fin 128, (0 : ℝ) * R.keys n k.val) - ksq R n * it R
/-- The kernel's value rows: the six value columns, then the constant one. -/
def v7 (R : RealIn) (j n : ℕ) : ℝ := if j < 6 then R.vals n j else 1
/-- The reference's temperature-scaled score. -/
def wref (R : RealIn) (r n : ℕ) : ℝ :=
  ((2 * ∑ k : Fin 128, h R r k.val * R.keys n k.val - ∑ k : Fin 128, h R r k.val * h R r k.val) - ksq R n) / Real.exp R.lt

/-- The kernel's result at (r, j): tanh of the quotient of the running sums after the last block. -/
def out (R : RealIn) (r j : ℕ) : ℝ :=
  Real.tanh (runAcc (score R r) (v7 R j) 127 / runAcc (score R r) (v7 R 6) 127)

/-- The reference's result at (r, j): tanh of the softmax-weighted mean of value column j. -/
def refOut (R : RealIn) (r j : ℕ) : ℝ :=
  Real.tanh (∑ n : Fin 131072,
    (Real.exp (wref R r n.val - rowMax (wref R r)) / ∑ n' : Fin 131072, Real.exp (wref R r n'.val - rowMax (wref R r))) * R.vals n.val j)

end Cert.Spec

end
-- ==== Proof.LibPlainDot.lean ====
/-
  General facts about a matrix product of the plain kind, read at one entry on the extended reals.

  The product of an M x K left operand with a K x N right operand, no batch axis, the left contracted on its second
  axis and the right on its first, accumulated into the zero array: entry (a, j) is the sum over k of
  left (a, k) * right (k, j).  The contraction index of such a product has one axis, of extent K, and is re-indexed by
  its one coordinate; the operand indices at output (a, j) and contraction k are (a, k) and (k, j).

  A column [M, 1] broadcast along the second axis to [M, N] reads, at (a, j), the column's entry (a, 0).

  A record of dimension numbers printed with a program is this plain one whenever its six lists are
  [1], [0], [0], [1], [], [] (the seventh field is a proof), by reflexivity; the lemmas are stated for
  DotDims.plain M K N so that they serve every such record.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable (M K N : Nat)

/-- The left operand's row coordinate at output index j is j's row. -/
theorem plain_lhs_row (j : (⟨2, ![M, N]⟩ : Shape).Idx) (q : (DotDims.plain M K N).contr.Idx) :
    ((DotDims.plain M K N).lhsIdx j q 0).val = (j 0).val := rfl
/-- The left operand's column coordinate is the contraction index's one coordinate. -/
theorem plain_lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's row coordinate is the contraction index's one coordinate. -/
theorem plain_rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- The right operand's column coordinate at output index j is j's column. -/
theorem plain_rhs_col (j : (⟨2, ![M, N]⟩ : Shape).Idx) (q : (DotDims.plain M K N).contr.Idx) :
    ((DotDims.plain M K N).rhsIdx j q 1).val = (j 1).val := rfl

/-- A plain matrix product into the zero accumulator, at entry (a, j): the sum over k of W (a, k) * X (k, j). -/
theorem matmul_plain_zero (W : FVec Ideal ⟨2, ![M, K]⟩ .f32) (X : FVec Ideal ⟨2, ![K, N]⟩ .f32) (a : Fin M) (j : Fin N) :
    matmul (DotDims.plain M K N) none W X (constant ⟨2, ![M, N]⟩ .f32 0x00000000#32) (ix2 a j)
      = ∑ k : Fin K, W (ix2 a k) * X (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a j) ((contrEquiv1 (DotDims.plain M K N) K rfl rfl).symm k) = ix2 a k :=
    funext fun b => Fin.ext (by
      match b with
      | ⟨0, _⟩ => exact plain_lhs_row M K N _ _
      | ⟨1, _⟩ => exact (plain_lhs_col M K N _ _).trans hk)
  have er : (DotDims.plain M K N).rhsIdx (ix2 a j) ((contrEquiv1 (DotDims.plain M K N) K rfl rfl).symm k) = ix2 k j :=
    funext fun b => Fin.ext (by
      match b with
      | ⟨0, _⟩ => exact (plain_rhs_row M K N _ _).trans hk
      | ⟨1, _⟩ => exact plain_rhs_col M K N _ _)
  rw [el, er]

/-- A column broadcast along the second axis reads the column's entry of the same row. -/
theorem broadcast_col {α : Type} (b : (⟨2, ![M, 1]⟩ : Shape).Idx → α) (hb : (⟨2, ![M, 1]⟩ : Shape).Broadcasts ⟨2, ![M, N]⟩)
    (a : Fin M) (j : Fin N) : broadcastTo ⟨2, ![M, N]⟩ b hb (ix2 a j) = b (ix2 a 0) :=
  broadcastTo_apply b hb (ix2 a j) (ix2 a 0) (fun ax => by
    match ax with
    | ⟨0, _⟩ =>
      show a.val = if M = 1 then 0 else a.val
      split
      · have := a.isLt; omega
      · rfl
    | ⟨1, _⟩ =>
      show 0 = if (1 : Nat) = 1 then 0 else j.val
      rw [if_pos rfl])

end Cert.LibPlainDot

end
-- ==== Proof.LibPlainAny.lean ====
/-
  A plain matrix product on the extended reals, whatever float formats its operands carry.

  The product of an M x K left operand with a K x N right operand (no batch axis, the left contracted on its
  second axis, the right on its first) has at entry (a, j) the value: sum over k of left (a, k) * right (k, j).
  On the extended reals a change of float format is the identity, so this reading does not depend on the
  operands' formats: it holds for a kernel's product of bf16 operands accumulated into the f32 zero array,
  and for the host's product, which has no accumulator, alike.

  The contraction index of a plain product has one axis of extent K; re-indexed by its one coordinate k, the
  operand indices at output (a, j) are (a, k) and (k, j).
-/
import proofs.«403143_j42399917146658_3_alg».proof.Proof.LibPlainDot

noncomputable section

namespace Cert.LibPlainAny

open Idealize.ShloMosaic Idealize.ShloMosaic.ValueIdx

variable (M K N : Nat)

/-- The left operand's index at output (a, j) and contraction coordinate k is (a, k). -/
theorem plain_lhsIdx (a : Fin M) (j : Fin N) (k : Fin K) :
    (DotDims.plain M K N).lhsIdx (ix2 a j) ((contrEquiv1 (DotDims.plain M K N) K rfl rfl).symm k) = ix2 a k :=
  funext fun b => Fin.ext (by
    have hk := contrEquiv1_symm_val (DotDims.plain M K N) K rfl rfl k
    match b with
    | ⟨0, _⟩ => exact Cert.LibPlainDot.plain_lhs_row M K N _ _
    | ⟨1, _⟩ => exact (Cert.LibPlainDot.plain_lhs_col M K N _ _).trans hk)

/-- The right operand's index at output (a, j) and contraction coordinate k is (k, j). -/
theorem plain_rhsIdx (a : Fin M) (j : Fin N) (k : Fin K) :
    (DotDims.plain M K N).rhsIdx (ix2 a j) ((contrEquiv1 (DotDims.plain M K N) K rfl rfl).symm k) = ix2 k j :=
  funext fun b => Fin.ext (by
    have hk := contrEquiv1_symm_val (DotDims.plain M K N) K rfl rfl k
    match b with
    | ⟨0, _⟩ => exact (Cert.LibPlainDot.plain_rhs_row M K N _ _).trans hk
    | ⟨1, _⟩ => exact Cert.LibPlainDot.plain_rhs_col M K N _ _)

/-- A kernel's plain product into the zero array, operands of any formats, at entry (a, j). -/
theorem matmul_plain_zero_any {φ₁ φ₂ : FTy} (W : FVec Ideal ⟨2, ![M, K]⟩ φ₁) (X : FVec Ideal ⟨2, ![K, N]⟩ φ₂)
    (a : Fin M) (j : Fin N) :
    matmul (DotDims.plain M K N) none W X (constant ⟨2, ![M, N]⟩ .f32 0x00000000#32) (ix2 a j)
      = ∑ k : Fin K, (W (ix2 a k) : EReal) * (X (ix2 k j) : EReal) := by
  simp only [matmul]
  rw [Ideal.matmul_constant_zero_apply, ← Equiv.sum_comp (contrEquiv1 (DotDims.plain M K N) K rfl rfl).symm]
  refine Finset.sum_congr rfl fun k _ => ?_
  rw [plain_lhsIdx, plain_rhsIdx]

/-- The host's plain product, operands of any formats, at entry (a, j). -/
theorem dotGeneral_plain_any {φ₁ φ₂ : FTy} (W : FVec Ideal ⟨2, ![M, K]⟩ φ₁) (X : FVec Ideal ⟨2, ![K, N]⟩ φ₂)
    (a : Fin M) (j : Fin N) :
    Host.dotGeneral (DotDims.plain M K N) none W X (ix2 a j)
      = ∑ k : Fin K, (W (ix2 a k) : EReal) * (X (ix2 k j) : EReal) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Cert.LibPlainAny

end
-- ==== Proof.LibLayout2.lean ====
/-
  Small layout facts read at an entry: a column [M, 1] and a row [1, N] broadcast in dimensions [0, 1] to [M, N],
  a vector [N] broadcast in dimension [1] to one row [1, N], and a vector [M] recast as a column [M, 1].
-/
import Idealize.ShloMosaic.Lib.ValueIdx
import Idealize.ShloMosaic.Lib.ValueLayout
import Idealize.ShloMosaic.Lib.Pipeline.Value

noncomputable section

namespace Cert.LibLayout2

open Idealize.ShloMosaic Idealize.ShloMosaic.ValueIdx

variable {α : Type}

/-- A column broadcast over the columns reads, at (r, q), the column's entry of row r. -/
theorem bcast_col_apply {M N : Nat} (y : (⟨2, ![M, 1]⟩ : Shape).Idx → α)
    (h : (⟨2, ![M, 1]⟩ : Shape).BroadcastsInDim ⟨2, ![M, N]⟩ ![0, 1]) (r : Fin M) (q : Fin N) :
    broadcastInDim ⟨2, ![M, N]⟩ ![0, 1] h y (ix2 r q) = y (ix2 r (0 : Fin 1)) :=
  broadcastInDim_apply ![0, 1] h y (ix2 r q) (ix2 r (0 : Fin 1)) fun ax => by
    match ax with
    | ⟨0, _⟩ =>
      show r.val = if M = 1 then 0 else r.val
      split
      · have := r.isLt; omega
      · rfl
    | ⟨1, _⟩ => rfl

/-- A row broadcast over the rows reads, at (r, q), the row's entry of column q. -/
theorem bcast_row_apply {M N : Nat} (y : (⟨2, ![1, N]⟩ : Shape).Idx → α)
    (h : (⟨2, ![1, N]⟩ : Shape).BroadcastsInDim ⟨2, ![M, N]⟩ ![0, 1]) (r : Fin M) (q : Fin N) :
    broadcastInDim ⟨2, ![M, N]⟩ ![0, 1] h y (ix2 r q) = y (ix2 (0 : Fin 1) q) :=
  broadcastInDim_apply ![0, 1] h y (ix2 r q) (ix2 (0 : Fin 1) q) fun ax => by
    match ax with
    | ⟨0, _⟩ => rfl
    | ⟨1, _⟩ =>
      show q.val = if N = 1 then 0 else q.val
      split
      · have := q.isLt; omega
      · rfl

/-- A vector broadcast to one row reads, at (u, q), the vector's entry q. -/
theorem bcast_vec_row_apply {N : Nat} (b : (⟨1, ![N]⟩ : Shape).Idx → α)
    (h : (⟨1, ![N]⟩ : Shape).BroadcastsInDim ⟨2, ![1, N]⟩ ![1]) (u : Fin 1) (q : Fin N) :
    broadcastInDim ⟨2, ![1, N]⟩ ![1] h b (ix2 u q) = b (ix1 q) :=
  broadcastInDim_apply ![1] h b (ix2 u q) (ix1 q) fun ax => by
    match ax with
    | ⟨0, _⟩ =>
      show q.val = if N = 1 then 0 else q.val
      split
      · have := q.isLt; omega
      · rfl

/-- A vector recast as a column reads, at (r, u), the vector's entry r. -/
theorem shapeCast_a_a1_apply {M : Nat} (x : (⟨1, ![M]⟩ : Shape).Idx → α) (h : (⟨1, ![M]⟩ : Shape).ShapeCasts ⟨2, ![M, 1]⟩)
    (r : Fin M) (u : Fin 1) : shapeCast ⟨2, ![M, 1]⟩ x h (ix2 r u) = x (ix1 r) :=
  shapeCast_apply x h _ _ (by
    have hu : u.val = 0 := by omega
    rw [Shape.rowMajor_val_two, Shape.rowMajor_val_one]
    show r.val = r.val * 1 + u.val
    omega)

end Cert.LibLayout2

end
-- ==== Proof.HostArrays.lean ====
/-
  The five arrays the kernel region reads, as the host operations before it leave them, at an entry, over real inputs.

  With h = obs * W^T + b, e = exp log_temp and it = 1 / e:
    the first operand is  h * (2 * it)  (its change of format is the identity on the extended reals),
    the second is that array minus itself, which is 0 because every entry is a real number,
    the third is (0 + sum_k keys^2) * it, laid out as one row,
    the fourth is keys,
    the fifth is the transpose of [values | 1]: rows 0..5 the value columns, row 6 the constant 1.
-/
import proofs.«403143_j42399917146658_3_alg».proof.Proof.Gen.KernelIdeal.Frame
import proofs.«403143_j42399917146658_3_alg».proof.Proof.Spec
import proofs.«403143_j42399917146658_3_alg».proof.Proof.LibPlainAny
import proofs.«403143_j42399917146658_3_alg».proof.Proof.LibLayout2
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.IdealHost

noncomputable section

open scoped BigOperators

namespace Cert.KernelIdeal.HostArr

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ) (c : Dev nD) (R : Cert.Spec.RealIn)

/-- Core c's seven argument arrays are the real arrays of R. -/
abbrev ArgsR : Prop :=
  Cert.Spec.ArgsReal R
    (m ((c : Thread nD τ).loc main_arg0) : S2048x64.Idx → EReal) (m ((c : Thread nD τ).loc main_arg1) : S1.Idx → EReal)
    (m ((c : Thread nD τ).loc main_arg2) : S128x64.Idx → EReal) (m ((c : Thread nD τ).loc main_arg3) : S128.Idx → EReal)
    (m ((c : Thread nD τ).loc main_arg4) : S131072x128.Idx → EReal) (m ((c : Thread nD τ).loc main_arg5) : S131072x6.Idx → EReal)
    (m ((c : Thread nD τ).loc main_arg6) : S_.Idx → EReal)

/-- The predictor array obs * W^T + b. -/
def hArr (a0 : FVec Ideal S2048x64 .f32) (a2 : FVec Ideal S128x64 .f32) (a3 : FVec Ideal S128 .f32) :
    FVec Ideal S2048x128 .f32 :=
  addf (Host.dotGeneral dot_S2048x64_S64x128_S2048x128_1_0_0_1_n_n none a0
          (transpose S64x128 [1, 0] a2 transposes_S128x64_S64x128_1_0))
    (broadcastInDim S2048x128 ![0, 1] bcast_S1x128_S2048x128_0_1
      (broadcastInDim S1x128 ![1] bcast_S128_S1x128_1 a3))

/-- The scalar 2 * (1 / exp log_temp). -/
def scaleArr (a6 : FVec Ideal S_ .f32) : FVec Ideal S_ .f32 :=
  mulf (constant (F := Ideal) S_ .f32 0x40000000#32)
    (Host.divf (constant (F := Ideal) S_ .f32 0x3F800000#32) (Host.exp a6))

/-- The scaled predictor array, before its change of format. -/
def hsArr (a0 : FVec Ideal S2048x64 .f32) (a2 : FVec Ideal S128x64 .f32) (a3 : FVec Ideal S128 .f32)
    (a6 : FVec Ideal S_ .f32) : FVec Ideal S2048x128 .f32 :=
  mulf (hArr a0 a2 a3) (broadcastInDim S2048x128 ![] bcast_S_S2048x128 (scaleArr a6))

/-- The f32 pattern 0x40000000 is the real number two. -/
theorem ofBits_two_f32 : Ideal.ofBits .f32 0x40000000#32 = ((2 : ℝ) : EReal) := by
  simp [Ideal.ofBits, Ideal.ieee, -EReal.coe_mul]; norm_num

/-- A finite sum of coerced reals is the coerced sum. -/
theorem coe_finset_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Over real inputs the predictor array at (r, k) is the real h r k. -/
theorem hArr_apply (a0 : FVec Ideal S2048x64 .f32) (a2 : FVec Ideal S128x64 .f32) (a3 : FVec Ideal S128 .f32)
    (h0 : Cert.Spec.IsReal2 a0 R.obs) (h2 : Cert.Spec.IsReal2 a2 R.W) (h3 : Cert.Spec.IsReal1 a3 R.b)
    (r : Fin 2048) (k : Fin 128) :
    hArr a0 a2 a3 (ix2 r k) = ((Cert.Spec.h R r.val k.val : ℝ) : EReal) := by
  unfold hArr
  rw [addf_apply]
  have hdot := Cert.LibPlainAny.dotGeneral_plain_any 2048 64 128 a0
    (transpose S64x128 [1, 0] a2 transposes_S128x64_S64x128_1_0) r k
  have hterm : ∀ j : Fin 64,
      (a0 (ix2 r j) : EReal) * (transpose S64x128 [1, 0] a2 transposes_S128x64_S64x128_1_0 (ix2 j k) : EReal)
        = ((R.obs r.val j.val * R.W k.val j.val : ℝ) : EReal) := by
    intro j
    rw [transpose_apply [1, 0] a2 transposes_S128x64_S64x128_1_0 (ix2 j k) (ix2 k j)
      (fun b => match b with | ⟨0, _⟩ => rfl | ⟨1, _⟩ => rfl)]
    rw [h0 (ix2 r j), h2 (ix2 k j), ← EReal.coe_mul]
  rw [Finset.sum_congr rfl (fun j _ => hterm j), coe_finset_sum] at hdot
  rw [show Host.dotGeneral dot_S2048x64_S64x128_S2048x128_1_0_0_1_n_n none a0
        (transpose S64x128 [1, 0] a2 transposes_S128x64_S64x128_1_0) (ix2 r k) = _ from hdot]
  rw [Cert.LibLayout2.bcast_row_apply, Cert.LibLayout2.bcast_vec_row_apply, h3 (ix1 k), ← EReal.coe_add]
  rfl

/-- Over a real log-temperature the scalar is the real 2 * (1 / exp log_temp). -/
theorem scaleArr_apply (a6 : FVec Ideal S_ .f32) (h6 : Cert.Spec.IsReal0 a6 R.lt) (i : S_.Idx) :
    scaleArr a6 i = ((2 * Cert.Spec.it R : ℝ) : EReal) := by
  unfold scaleArr
  rw [mulf_apply, hostDivf_apply, constant_apply, constant_apply, ofBits_two_f32, Ideal.ofBits_one_f32]
  show ((2 : ℝ) : EReal) * Ideal.div 1 (Ideal.exp (a6 i)) = _
  rw [h6 i, Ideal.exp_coe, Ideal.div_coe (Real.exp_pos R.lt).ne', one_mul, ← EReal.coe_mul]
  rfl

/-- Over real inputs the scaled predictor array at (r, k) is the real hs r k. -/
theorem hsArr_apply (a0 : FVec Ideal S2048x64 .f32) (a2 : FVec Ideal S128x64 .f32) (a3 : FVec Ideal S128 .f32)
    (a6 : FVec Ideal S_ .f32)
    (h0 : Cert.Spec.IsReal2 a0 R.obs) (h2 : Cert.Spec.IsReal2 a2 R.W) (h3 : Cert.Spec.IsReal1 a3 R.b)
    (h6 : Cert.Spec.IsReal0 a6 R.lt) (r : Fin 2048) (k : Fin 128) :
    hsArr a0 a2 a3 a6 (ix2 r k) = ((Cert.Spec.hs R r.val k.val : ℝ) : EReal) := by
  unfold hsArr
  rw [mulf_apply, broadcastInDim_scalar_apply, hArr_apply R a0 a2 a3 h0 h2 h3, scaleArr_apply R a6 h6,
    ← EReal.coe_mul]
  rfl

/-- The first operand as a term of the arguments: the scaled predictor array in its narrower format. -/
theorem V_v10_eq :
    (V m c main_v10 : S2048x128.Idx → EReal)
      = truncf .bf16 (hsArr (m ((c : Thread nD τ).loc main_arg0)) (m ((c : Thread nD τ).loc main_arg2))
          (m ((c : Thread nD τ).loc main_arg3)) (m ((c : Thread nD τ).loc main_arg6))) bitsLt_bf16_f32 := by
  show StableHlo.after hostOps0 (fun b => m (c, b)) (Proc.devRef .tc main_v10) = _
  after_results
  rfl

/-- The second operand as a term of the arguments: the scaled predictor array minus its narrowed and
    re-widened copy, in the narrower format. -/
theorem V_v13_eq :
    (V m c main_v13 : S2048x128.Idx → EReal)
      = truncf .bf16
          (subf
            (hsArr (m ((c : Thread nD τ).loc main_arg0)) (m ((c : Thread nD τ).loc main_arg2))
              (m ((c : Thread nD τ).loc main_arg3)) (m ((c : Thread nD τ).loc main_arg6)))
            (extf .f32
              (truncf .bf16 (hsArr (m ((c : Thread nD τ).loc main_arg0)) (m ((c : Thread nD τ).loc main_arg2))
                (m ((c : Thread nD τ).loc main_arg3)) (m ((c : Thread nD τ).loc main_arg6))) bitsLt_bf16_f32)
              bitsLt_bf16_f32))
          bitsLt_bf16_f32 := by
  show StableHlo.after hostOps0 (fun b => m (c, b)) (Proc.devRef .tc main_v13) = _
  after_results
  rfl

/-- The first operand: the scaled predictor rows. -/
theorem hi_apply (hR : ArgsR m c R) (r : Fin 2048) (k : Fin 128) :
    (V m c main_v10 : S2048x128.Idx → EReal) (ix2 r k) = ((Cert.Spec.hs R r.val k.val : ℝ) : EReal) := by
  rw [V_v10_eq m c, truncf_apply]
  exact hsArr_apply R _ _ _ _ hR.obs hR.W hR.b hR.lt r k

/-- The second operand: the residual of the split, zero. -/
theorem lo_apply (hR : ArgsR m c R) (r : Fin 2048) (k : Fin 128) :
    (V m c main_v13 : S2048x128.Idx → EReal) (ix2 r k) = (((0 : ℝ) : ℝ) : EReal) := by
  rw [V_v13_eq m c, truncf_apply, subf_apply, extf_apply, truncf_apply,
    hsArr_apply R _ _ _ _ hR.obs hR.W hR.b hR.lt r k, ← EReal.coe_sub, sub_self]

end Cert.KernelIdeal.HostArr

end
-- ==== Proof.HostArraysK.lean ====
/-
  The key-side arrays the kernel region reads, as the host operations before it leave them, at an entry, over real inputs:
  the scaled squared norms of the keys (0 + sum_k keys^2) * (1 / exp log_temp) laid out as one row, the keys themselves,
  and the transpose of [values | 1]: rows 0..5 the value columns, row 6 the constant 1.
-/
import proofs.«403143_j42399917146658_3_alg».proof.Proof.HostArrays

noncomputable section

open scoped BigOperators

namespace Cert.KernelIdeal.HostArr

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ) (c : Dev nD) (R : Cert.Spec.RealIn)

/-! ## Two facts about the extended reals -/

/-- The single-precision bit pattern 0x3F800000 (sign 0, exponent 127, fraction 0) is the real number one:
    2^23 * 2^(127 - 127 - 23) = 1. -/
private theorem keySide_ofBits_one : Ideal.ofBits .f32 0x3F800000#32 = ((1 : ℝ) : EReal) := by
  simp [Ideal.ofBits, Ideal.ieee]
  rw [← EReal.coe_mul, ← EReal.coe_one]
  congr 1
  norm_num

/-- A finite sum of real numbers, taken in the extended reals, is the real sum. -/
private theorem keySide_coe_sum {N : Nat} (f : Fin N → ℝ) :
    (∑ k : Fin N, ((f k : ℝ) : EReal)) = ((∑ k : Fin N, f k : ℝ) : EReal) := by
  refine Finset.induction_on (Finset.univ : Finset (Fin N)) (by simp) fun a s ha ih => ?_
  rw [Finset.sum_insert ha, Finset.sum_insert ha, ih, EReal.coe_add]

/-! ## The scaled squared norms -/

/-- The squared norms of the keys as the host computes them: the reduction over k of keys * keys, from 0. -/
private def keySide_ksqVec (a4 : (⟨S131072x128, .f32⟩ : BufTy).Contents (Elt Ideal)) :
    (⟨S131072, .f32⟩ : BufTy).Contents (Elt Ideal) :=
  Host.reduceAdd (F := Ideal) (mulf a4 a4) (constant (F := Ideal) S_ .f32 0x00000000#32) reducesTo_S131072x128_S131072_d1 h_S_

/-- The inverse temperature 1 / exp log_temp as a scalar array. -/
private def keySide_itArr (a6 : (⟨S_, .f32⟩ : BufTy).Contents (Elt Ideal)) : (⟨S_, .f32⟩ : BufTy).Contents (Elt Ideal) :=
  Host.divf (F := Ideal) (constant (F := Ideal) S_ .f32 0x3F800000#32) (Host.exp (F := Ideal) a6)

/-- The third operand as a term of the arguments: the squared norms laid out as one row, times the inverse temperature
    broadcast over that row. -/
private theorem keySide_ksq_term :
    (V m c main_v18 : S1x131072.Idx → EReal) =
      (mulf (F := Ideal) (φ := .f32)
        (broadcastInDim S1x131072 ![1] bcast_S131072_S1x131072_1 (keySide_ksqVec (m ((c : Thread nD τ).loc main_arg4))) :
          (⟨S1x131072, .f32⟩ : BufTy).Contents (Elt Ideal))
        (broadcastInDim S1x131072 ![] bcast_S_S1x131072 (keySide_itArr (m ((c : Thread nD τ).loc main_arg6))) :
          (⟨S1x131072, .f32⟩ : BufTy).Contents (Elt Ideal))) := by
  show StableHlo.after hostOps0 (fun b => m (c, b)) (Proc.devRef .tc main_v18) = _
  after_results
  rfl

/-- The host's squared norm of key n: the initial value plus the sum over k of keys (n, k) * keys (n, k). -/
private theorem keySide_ksqVec_apply (a4 : (⟨S131072x128, .f32⟩ : BufTy).Contents (Elt Ideal)) (n : Fin 131072) :
    keySide_ksqVec a4 (ix1 n) = Ideal.ofBits .f32 0x00000000#32 + ∑ k : Fin 128, a4 (ix2 n k) * a4 (ix2 n k) := by
  unfold keySide_ksqVec
  generalize hy : mulf (F := Ideal) a4 a4 = y0
  simp only [Host.reduceAdd, Ideal.hostReduceAdd_def]
  rw [Ideal.hostReduceAdd_single reducesTo_S131072x128_S131072_d1 (by decide)]
  refine congrArg₂ (· + ·) rfl (Finset.sum_congr rfl fun k _ => ?_)
  subst hy
  rw [mulf_apply]
  -- the index the reduction inserts k into, on axis 1 of (n), is (n, k)
  have e : (Shape.Reduces.lift (by decide : S131072x128.Reduces [1] S131072) (ix1 n) k) = ix2 n k :=
    funext fun a => Fin.ext (by match a with | ⟨0, _⟩ => rfl | ⟨1, _⟩ => rfl)
  rw [e]
  rfl

/-- Over real keys it is the real squared norm: the initial value is 0, and each product and the sum stay real. -/
private theorem keySide_ksqVec_real (a4 : (⟨S131072x128, .f32⟩ : BufTy).Contents (Elt Ideal))
    (hk : Cert.Spec.IsReal2 a4 R.keys) (n : Fin 131072) :
    keySide_ksqVec a4 (ix1 n) = ((Cert.Spec.ksq R n.val : ℝ) : EReal) := by
  rw [keySide_ksqVec_apply, Ideal.ofBits_zero_f32, zero_add]
  unfold Cert.Spec.ksq
  rw [← keySide_coe_sum]
  refine Finset.sum_congr rfl fun k _ => ?_
  rw [hk (ix2 n k), ← EReal.coe_mul]

/-- Over a real log-temperature x the scalar is 1 / exp x: exp x is a nonzero real, so the quotient is the product
    with its reciprocal, and 1 * (1 / exp x) = 1 / exp x. -/
private theorem keySide_itArr_real (a6 : (⟨S_, .f32⟩ : BufTy).Contents (Elt Ideal)) (hl : Cert.Spec.IsReal0 a6 R.lt)
    (i : S_.Idx) : keySide_itArr a6 i = ((Cert.Spec.it R : ℝ) : EReal) := by
  show FloatOps.hostDivf (Ideal.ofBits .f32 0x3F800000#32) (FloatOps.hostUnary .exp (a6 i)) = _
  rw [Ideal.hostDivf_def, Ideal.hostUnary_exp_def, hl i, keySide_ofBits_one]
  show Ideal.div _ ((Real.exp R.lt : ℝ) : EReal) = _
  rw [Ideal.div_coe (Real.exp_pos R.lt).ne', ← EReal.coe_mul, one_mul]
  rfl

/-- The third operand: the scaled squared norms of the keys, one row. -/
theorem ksq_apply (hR : ArgsR m c R) (u : Fin 1) (n : Fin 131072) :
    (V m c main_v18 : S1x131072.Idx → EReal) (ix2 u n) = ((Cert.Spec.ksq R n.val * Cert.Spec.it R : ℝ) : EReal) := by
  rw [keySide_ksq_term, mulf_apply, Cert.LibLayout2.bcast_vec_row_apply _ bcast_S131072_S1x131072_1 u n,
    broadcastInDim_apply _ bcast_S_S1x131072 _ (ix2 u n) (fun a => a.elim0) (fun a => a.elim0),
    keySide_ksqVec_real R _ hR.keys n, keySide_itArr_real R _ hR.lt, ← EReal.coe_mul]

/-! ## The keys -/

/-- The fourth operand as a term of the arguments: the keys, their change of format the identity on the extended reals. -/
private theorem keySide_keys_term :
    (V m c main_v19 : S131072x128.Idx → EReal) =
      (truncf (F := Ideal) .bf16
        (m ((c : Thread nD τ).loc main_arg4) : (⟨S131072x128, .f32⟩ : BufTy).Contents (Elt Ideal)) bitsLt_bf16_f32) := by
  show StableHlo.after hostOps0 (fun b => m (c, b)) (Proc.devRef .tc main_v19) = _
  after_results

/-- The fourth operand: the keys. -/
theorem keys_apply (hR : ArgsR m c R) (n : Fin 131072) (k : Fin 128) :
    (V m c main_v19 : S131072x128.Idx → EReal) (ix2 n k) = ((R.keys n.val k.val : ℝ) : EReal) := by
  rw [keySide_keys_term, truncf_apply]
  exact hR.keys (ix2 n k)

/-! ## The value rows -/

/-- The column of ones: the constant one broadcast to [131072, 1]. -/
private def keySide_onesCol : (⟨S131072x1, .f32⟩ : BufTy).Contents (Elt Ideal) :=
  broadcastInDim S131072x1 ![] bcast_S_S131072x1 (constant (F := Ideal) S_ .f32 0x3F800000#32)

/-- [values | 1]: the six value columns with the column of ones appended along axis 1. -/
private def keySide_valsOne (a5 : (⟨S131072x6, .f32⟩ : BufTy).Contents (Elt Ideal)) :
    (⟨S131072x7, .f32⟩ : BufTy).Contents (Elt Ideal) :=
  concatenate S131072x7 1 [⟨S131072x6, a5⟩, ⟨S131072x1, keySide_onesCol⟩] concatenates_S131072x6_S131072x1_S131072x7_d1

/-- The fifth operand as a term of the arguments: the transpose of [values | 1], its change of format the identity. -/
private theorem keySide_v7_term :
    (V m c main_v23 : S7x131072.Idx → EReal) =
      (truncf (F := Ideal) .bf16
        (transpose S7x131072 [1, 0] (keySide_valsOne (m ((c : Thread nD τ).loc main_arg5))) transposes_S131072x7_S7x131072_1_0)
        bitsLt_bf16_f32) := by
  show StableHlo.after hostOps0 (fun b => m (c, b)) (Proc.devRef .tc main_v23) = _
  after_results
  rfl

/-- Every entry of the column of ones is one. -/
private theorem keySide_onesCol_apply (i : S131072x1.Idx) : keySide_onesCol i = ((1 : ℝ) : EReal) := by
  unfold keySide_onesCol
  rw [broadcastInDim_apply _ bcast_S_S131072x1 _ i (fun a => a.elim0) (fun a => a.elim0), constant_apply, keySide_ofBits_one]

/-- [values | 1] at (n, j) with j < 6 falls in the first piece: it is values (n, j). -/
private theorem keySide_valsOne_apply_lt (a5 : (⟨S131072x6, .f32⟩ : BufTy).Contents (Elt Ideal)) (n : Fin 131072) (j : Fin 7)
    (hj : j.val < 6) : keySide_valsOne a5 (ix2 n j) = a5 (ix2 n (⟨j.val, hj⟩ : Fin 6)) := by
  unfold keySide_valsOne
  exact concatenate_pair_apply_left (1 : Fin S131072x7.rank) a5 keySide_onesCol concatenates_S131072x6_S131072x1_S131072x7_d1
    (ix2 n j) rfl (ix2 n (⟨j.val, hj⟩ : Fin 6)) (fun b => match b with
      | ⟨0, _⟩ => rfl
      | ⟨1, _⟩ => rfl)

/-- [values | 1] at (n, j) with j = 6 falls in the second piece, at column 6 - 6 = 0 of the ones: it is one. -/
private theorem keySide_valsOne_apply_ge (a5 : (⟨S131072x6, .f32⟩ : BufTy).Contents (Elt Ideal)) (n : Fin 131072) (j : Fin 7)
    (hj : ¬ j.val < 6) : keySide_valsOne a5 (ix2 n j) = ((1 : ℝ) : EReal) := by
  unfold keySide_valsOne
  rw [concatenate_pair_apply_right (1 : Fin S131072x7.rank) a5 keySide_onesCol concatenates_S131072x6_S131072x1_S131072x7_d1
    (ix2 n j) rfl rfl (ix2 n (0 : Fin 1)) (fun b hb => match b, hb with
      | ⟨0, _⟩, _ => rfl
      | ⟨1, _⟩, hb => absurd rfl hb)
    (by show (0 : Nat) + 6 = j.val; have := j.isLt; omega)]
  exact keySide_onesCol_apply _

/-- The fifth operand: the value columns as rows, then the row of ones. -/
theorem v7_apply (hR : ArgsR m c R) (j : Fin 7) (n : Fin 131072) :
    (V m c main_v23 : S7x131072.Idx → EReal) (ix2 j n) = ((Cert.Spec.v7 R j.val n.val : ℝ) : EReal) := by
  rw [keySide_v7_term, truncf_apply,
    transpose_apply [1, 0] _ transposes_S131072x7_S7x131072_1_0 (ix2 j n) (ix2 n j) (fun b => match b with
      | ⟨0, _⟩ => rfl
      | ⟨1, _⟩ => rfl)]
  unfold Cert.Spec.v7
  by_cases hj : j.val < 6
  · rw [keySide_valsOne_apply_lt _ n j hj, if_pos hj]
    exact hR.vals (ix2 n (⟨j.val, hj⟩ : Fin 6))
  · rw [keySide_valsOne_apply_ge _ n j hj, if_neg hj]

end Cert.KernelIdeal.HostArr

end
-- ==== Proof.LibTransposedRhs.lean ====
/-
  A matrix product whose right operand is contracted on its LAST axis, read at one entry on the extended reals.

  The product of an M x K left operand with an N x K right operand (no batch axis, both contracted on their second
  axis: every row of the left against every row of the right) has at entry (a, j) the value
  sum over k of left (a, k) * right (j, k).  On the extended reals a change of float format is the identity, so the
  reading holds whatever formats the operands carry, for a kernel's product accumulated into the f32 zero array and
  for the host's product alike.

  The contraction index has one axis of extent K; re-indexed by its one coordinate k, the operand indices at
  output (a, j) are (a, k) and (j, k).

  A record of dimension numbers printed with a program is DotDims.transposedRhs M K N whenever its six lists are
  [1], [1], [0], [0], [], [] (the seventh field is a proof), by reflexivity.
-/
import Idealize.ShloMosaic.PureOps.Ideal.Laws
import Idealize.ShloMosaic.Lib.ValueIdx
import Idealize.ShloMosaic.Lib.Pipeline.Value

noncomputable section

namespace Cert.LibTransposedRhs

open Idealize.ShloMosaic Idealize.ShloMosaic.ValueIdx

variable (M K N : Nat)

/-- The left operand's row coordinate at output index j is j's row. -/
theorem lhs_row (j : (⟨2, ![M, N]⟩ : Shape).Idx) (q : (DotDims.transposedRhs M K N).contr.Idx) :
    ((DotDims.transposedRhs M K N).lhsIdx j q 0).val = (j 0).val := rfl
/-- The left operand's column coordinate is the contraction index's one coordinate. -/
theorem lhs_col (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q
/-- The right operand's row coordinate at output index j is j's column. -/
theorem rhs_row (j : (⟨2, ![M, N]⟩ : Shape).Idx) (q : (DotDims.transposedRhs M K N).contr.Idx) :
    ((DotDims.transposedRhs M K N).rhsIdx j q 0).val = (j 1).val := rfl
/-- The right operand's column coordinate is the contraction index's one coordinate. -/
theorem rhs_col (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The left operand's index at output (a, j) and contraction coordinate k is (a, k). -/
theorem lhsIdx_eq (a : Fin M) (j : Fin N) (k : Fin K) :
    (DotDims.transposedRhs M K N).lhsIdx (ix2 a j) ((contrEquiv1 (DotDims.transposedRhs M K N) K rfl rfl).symm k) = ix2 a k :=
  funext fun b => Fin.ext (by
    have hk := contrEquiv1_symm_val (DotDims.transposedRhs M K N) K rfl rfl k
    match b with
    | ⟨0, _⟩ => exact lhs_row M K N _ _
    | ⟨1, _⟩ => exact (lhs_col M K N _ _).trans hk)

/-- The right operand's index at output (a, j) and contraction coordinate k is (j, k). -/
theorem rhsIdx_eq (a : Fin M) (j : Fin N) (k : Fin K) :
    (DotDims.transposedRhs M K N).rhsIdx (ix2 a j) ((contrEquiv1 (DotDims.transposedRhs M K N) K rfl rfl).symm k) = ix2 j k :=
  funext fun b => Fin.ext (by
    have hk := contrEquiv1_symm_val (DotDims.transposedRhs M K N) K rfl rfl k
    match b with
    | ⟨0, _⟩ => exact rhs_row M K N _ _
    | ⟨1, _⟩ => exact (rhs_col M K N _ _).trans hk)

/-- A kernel's product of this kind into the zero array, operands of any formats, at entry (a, j). -/
theorem matmul_transposedRhs_zero_any {φ₁ φ₂ : FTy} (W : FVec Ideal ⟨2, ![M, K]⟩ φ₁) (X : FVec Ideal ⟨2, ![N, K]⟩ φ₂)
    (a : Fin M) (j : Fin N) :
    matmul (DotDims.transposedRhs M K N) none W X (constant ⟨2, ![M, N]⟩ .f32 0x00000000#32) (ix2 a j)
      = ∑ k : Fin K, (W (ix2 a k) : EReal) * (X (ix2 j k) : EReal) := by
  simp only [matmul]
  rw [Ideal.matmul_constant_zero_apply, ← Equiv.sum_comp (contrEquiv1 (DotDims.transposedRhs M K N) K rfl rfl).symm]
  refine Finset.sum_congr rfl fun k _ => ?_
  rw [lhsIdx_eq, rhsIdx_eq]

/-- The host's product of this kind, operands of any formats, at entry (a, j). -/
theorem dotGeneral_transposedRhs_any {φ₁ φ₂ : FTy} (W : FVec Ideal ⟨2, ![M, K]⟩ φ₁) (X : FVec Ideal ⟨2, ![N, K]⟩ φ₂)
    (a : Fin M) (j : Fin N) :
    Host.dotGeneral (DotDims.transposedRhs M K N) none W X (ix2 a j)
      = ∑ k : Fin K, (W (ix2 a k) : EReal) * (X (ix2 j k) : EReal) := by
  simp only [Host.dotGeneral]
  rw [Ideal.dotGeneral_apply, ← Equiv.sum_comp (contrEquiv1 (DotDims.transposedRhs M K N) K rfl rfl).symm]
  refine Finset.sum_congr rfl fun k _ => ?_
  rw [lhsIdx_eq, rhsIdx_eq]

end Cert.LibTransposedRhs

end
-- ==== Proof.PayMax.lean ====
/-
  One grid step of the kernel, read at an entry on the extended reals: the block of scores and the running maximum.

  With hi, lo (1024 x 128) the two halves of the scaled predictor rows of this batch tile, keys (1024 x 128) the block of
  keys, ksq (1 x 1024) their scaled squared norms:
      score (q, l) = (sum_k hi (q, k) * keys (l, k) + sum_k lo (q, k) * keys (l, k)) - ksq (0, l),
      new maximum (q) = max (old maximum (q)) (max over l of score (q, l)),
  the inner maximum starting from minus infinity.  When every score of row q is a real number the new maximum is the
  real maximum; an old maximum of minus infinity (the first block) drops out.
-/
import proofs.«403143_j42399917146658_3_alg».proof.Proof.Gen.KernelIdeal.Skeleton
import proofs.«403143_j42399917146658_3_alg».proof.Proof.LibTransposedRhs
import proofs.«403143_j42399917146658_3_alg».proof.Proof.LibLayout2
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay

open Idealize.ShloMosaic Idealize.ShloMosaic.TcCoe Idealize.ShloMosaic.ValueIdx Cert.KernelIdeal Cert.KernelIdeal.Gen

variable (keysB hiB loB : Vec Ideal S1024x128 .bf16) (ksqB : Vec Ideal S1x1024 .f32) (mprev : Vec Ideal S1024x1 .f32)

/-- The block of scores at (q, l). -/
theorem pay6_apply (q l : Fin 1024) :
    k0_pay6 (F := Ideal) keysB hiB loB ksqB (ix2 q l)
      = ((∑ k : Fin 128, (hiB (ix2 q k) : EReal) * (keysB (ix2 l k) : EReal))
          + ∑ k : Fin 128, (loB (ix2 q k) : EReal) * (keysB (ix2 l k) : EReal))
        - (ksqB (ix2 (0 : Fin 1) l) : EReal) := by
  unfold k0_pay6
  simp only [shapeCast_self]
  show (matmul (F := Ideal) (DotDims.transposedRhs 1024 128 1024) none hiB keysB
            (constant (F := Ideal) ⟨2, ![1024, 1024]⟩ .f32 0x00000000#32) (ix2 q l)
        + matmul (F := Ideal) (DotDims.transposedRhs 1024 128 1024) none loB keysB
            (constant (F := Ideal) ⟨2, ![1024, 1024]⟩ .f32 0x00000000#32) (ix2 q l))
        - broadcastTo S1024x1024 ksqB broadcasts_S1x1024_S1024x1024 (ix2 q l) = _
  rw [Cert.LibTransposedRhs.matmul_transposedRhs_zero_any, Cert.LibTransposedRhs.matmul_transposedRhs_zero_any]
  congr 1
  exact broadcastTo_1b_ab_apply ksqB _ q l

/-- The reset value of the running maximum is minus infinity everywhere. -/
theorem pay4_apply (y : S1024x1.Idx) : k0_pay4 (F := Ideal) y = (⊥ : EReal) := by
  unfold k0_pay4
  rw [shapeCast_self]
  show Ideal.ofBits .f32 0xFF800000#32 = ⊥
  simp [Ideal.ofBits, Ideal.ieee]

/-- Storing the running maximum changes nothing (a cast between equal shapes). -/
theorem pay2_eq (v : FVec Ideal S1024x1 .f32) : k0_pay2 (F := Ideal) v = v := by
  unfold k0_pay2
  exact shapeCast_self v _

/-- The maximum over a nonempty finite family of reals, taken on the extended reals starting from minus infinity,
    is the real maximum: each term is below the real maximum, and the real maximum is one of the terms. -/
private theorem fold_max_coe {ι : Type} (s : Finset ι) (hs : s.Nonempty) (g : ι → ℝ) :
    s.fold max (⊥ : EReal) (fun l => ((g l : ℝ) : EReal)) = ((s.sup' hs g : ℝ) : EReal) := by
  show s.sup (fun l => ((g l : ℝ) : EReal)) = _
  apply le_antisymm
  · exact Finset.sup_le fun l hl => EReal.coe_le_coe_iff.2 (Finset.le_sup' g hl)
  · obtain ⟨l, hl, he⟩ := Finset.exists_mem_eq_sup' hs g
    rw [he]
    exact Finset.le_sup (f := fun l => ((g l : ℝ) : EReal)) hl

/-- The index of the score block over row q with lane l inserted on the reduced axis is (q, l). -/
private theorem lift_row (q l : Fin 1024) :
    reduces_S1024x1024_S1024.lift (ix1 q) l = ix2 q l :=
  funext fun b => Fin.ext (by
    match b with
    | ⟨0, _⟩ => rfl
    | ⟨1, _⟩ => rfl)

/-- The maximum over the lanes of row q of the score block, when its scores are the reals sb: the real maximum. -/
private theorem lane_max (q : Fin 1024) (sb : Fin 1024 → ℝ)
    (hs : ∀ l, k0_pay6 (F := Ideal) keysB hiB loB ksqB (ix2 q l) = ((sb l : ℝ) : EReal)) :
    multiReduction (F := Ideal) .maximumf [1] S1024 (k0_pay6 (F := Ideal) keysB hiB loB ksqB) 0xFF800000#32
        reduces_S1024x1024_S1024 (.inl rfl) rfl (ix1 q)
      = ((Finset.univ.sup' Finset.univ_nonempty sb : ℝ) : EReal) := by
  have h := Ideal.multiReduction_maximumf_single (src := k0_pay6 (F := Ideal) keysB hiB loB ksqB) 0xFF800000#32
    reduces_S1024x1024_S1024 (.inl rfl) rfl (ix1 q)
  refine h.trans ?_
  have hb : (FloatOps.ofBits (F := Ideal) .f32 0xFF800000#32 : EReal) = ⊥ := by
    show Ideal.ofBits .f32 0xFF800000#32 = ⊥
    simp [Ideal.ofBits, Ideal.ieee]
  have hf : ∀ l : Fin 1024, (k0_pay6 (F := Ideal) keysB hiB loB ksqB ∘ reduces_S1024x1024_S1024.lift (ix1 q)) l
      = ((sb l : ℝ) : EReal) := fun l =>
    (congrArg (k0_pay6 (F := Ideal) keysB hiB loB ksqB) (lift_row q l)).trans (hs l)
  rw [hb]
  refine (Finset.fold_congr (g := fun l : Fin 1024 => ((sb l : ℝ) : EReal)) fun l _ => hf l).trans ?_
  exact fold_max_coe Finset.univ Finset.univ_nonempty sb

/-- The new running maximum of row q, when its scores are the reals sb and the old maximum is the real M. -/
theorem pay7_real (q : Fin 1024) (sb : Fin 1024 → ℝ)
    (hs : ∀ l, k0_pay6 (F := Ideal) keysB hiB loB ksqB (ix2 q l) = ((sb l : ℝ) : EReal))
    (M : ℝ) (hm : (mprev (ix2 q (0 : Fin 1)) : EReal) = ((M : ℝ) : EReal)) :
    k0_pay7 (F := Ideal) keysB hiB loB ksqB mprev (ix2 q (0 : Fin 1))
      = ((max M (Finset.univ.sup' Finset.univ_nonempty sb) : ℝ) : EReal) := by
  show maximumf (F := Ideal) mprev (shapeCast S1024x1
      (multiReduction (F := Ideal) .maximumf [1] S1024 (k0_pay6 (F := Ideal) keysB hiB loB ksqB) 0xFF800000#32
        reduces_S1024x1024_S1024 (.inl rfl) rfl) shapeCasts_S1024_S1024x1) (ix2 q (0 : Fin 1)) = _
  rw [maximumf_apply, Cert.LibLayout2.shapeCast_a_a1_apply, lane_max keysB hiB loB ksqB q sb hs]
  refine (congrArg (fun x : EReal => max x _) hm).trans ?_
  exact (EReal.coe_strictMono.monotone.map_max (a := M)).symm

/-- The same at the first block, where the old maximum is minus infinity. -/
theorem pay7_real_first (q : Fin 1024) (sb : Fin 1024 → ℝ)
    (hs : ∀ l, k0_pay6 (F := Ideal) keysB hiB loB ksqB (ix2 q l) = ((sb l : ℝ) : EReal))
    (hm : (mprev (ix2 q (0 : Fin 1)) : EReal) = (⊥ : EReal)) :
    k0_pay7 (F := Ideal) keysB hiB loB ksqB mprev (ix2 q (0 : Fin 1))
      = ((Finset.univ.sup' Finset.univ_nonempty sb : ℝ) : EReal) := by
  show maximumf (F := Ideal) mprev (shapeCast S1024x1
      (multiReduction (F := Ideal) .maximumf [1] S1024 (k0_pay6 (F := Ideal) keysB hiB loB ksqB) 0xFF800000#32
        reduces_S1024x1024_S1024 (.inl rfl) rfl) shapeCasts_S1024_S1024x1) (ix2 q (0 : Fin 1)) = _
  rw [maximumf_apply, Cert.LibLayout2.shapeCast_a_a1_apply, lane_max keysB hiB loB ksqB q sb hs]
  refine (congrArg (fun x : EReal => max x _) hm).trans ?_
  exact max_bot_left _

end Cert.KernelIdeal.Pay

end
-- ==== Proof.Blocks.lean ====
/-
  The blocks the pipeline hands the kernel at grid point t = 128 * i + cc (batch tile i, memory tile cc), read at an entry
  over real inputs: local row q of the first two operands is global row 1024 * i + q, local slot l of the key-side
  operands is global slot 1024 * cc + l (a block's coordinate is always block index * block size + the coordinate inside).
  Hence the step's block of scores at (q, l) is the real score of global row against global slot.
-/
import proofs.«403143_j42399917146658_3_alg».proof.Proof.Gen.KernelIdeal.Frame
import proofs.«403143_j42399917146658_3_alg».proof.Proof.HostArraysK
import proofs.«403143_j42399917146658_3_alg».proof.Proof.PayMax

noncomputable section

open scoped BigOperators

namespace Cert.KernelIdeal.Blocks

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ) (c : Dev nD) (R : Cert.Spec.RealIn)

/-- The five input blocks at a point, at their literal types. -/
abbrev hiB (t : Fin cfg0.N) : Vec Ideal S1024x128 .bf16 := iblk m c 0 t
abbrev loB (t : Fin cfg0.N) : Vec Ideal S1024x128 .bf16 := iblk m c 1 t
abbrev ksqB (t : Fin cfg0.N) : Vec Ideal S1x1024 .f32 := iblk m c 2 t
abbrev keysB (t : Fin cfg0.N) : Vec Ideal S1024x128 .bf16 := iblk m c 3 t
abbrev v7B (t : Fin cfg0.N) : Vec Ideal S7x1024 .bf16 := iblk m c 4 t

/-- The global row of local row q at point t, and the global slot of local slot l. -/
abbrev row (t : Fin cfg0.N) (q : Fin 1024) : ℕ := t.val / 128 * 1024 + q.val
abbrev slot (t : Fin cfg0.N) (l : Fin 1024) : ℕ := t.val % 128 * 1024 + l.val

/-- The printed index maps, decided over the 256 grid points t = 128 * i + cc: the first two windows take block row i,
    the key-side windows block cc, and every other block coordinate is 0. -/
theorem idx_facts : ∀ t : Fin cfg0.N,
    win0_0.index t (0 : Fin 2) = t.val / 128 ∧ win0_0.index t (1 : Fin 2) = 0
    ∧ win0_1.index t (0 : Fin 2) = t.val / 128 ∧ win0_1.index t (1 : Fin 2) = 0
    ∧ win0_2.index t (0 : Fin 2) = 0 ∧ win0_2.index t (1 : Fin 2) = t.val % 128
    ∧ win0_3.index t (0 : Fin 2) = t.val % 128 ∧ win0_3.index t (1 : Fin 2) = 0
    ∧ win0_4.index t (0 : Fin 2) = 0 ∧ win0_4.index t (1 : Fin 2) = t.val % 128 :=
  (by decide +kernel : ∀ t : Fin grid0.N, _)

/-- The grid has 256 points. -/
private theorem t_lt (t : Fin cfg0.N) : t.val < 256 := by
  have h1 := t.isLt
  have h2 : cfg0.N = 256 := N_0
  omega

/-- Local row q of the first operand's block is global row 1024 * i + q of the scaled predictor rows. -/
theorem hi_blk (hR : HostArr.ArgsR m c R) (t : Fin cfg0.N) (q : Fin 1024) (k : Fin 128) :
    (hiB m c t (ix2 q k) : EReal) = ((Cert.Spec.hs R (row t q) k.val : ℝ) : EReal) := by
  obtain ⟨e0, e1, -⟩ := idx_facts t
  have ht := t_lt t
  have hq := q.isLt
  have hlt : t.val / 128 * 1024 + q.val < 2048 := by omega
  show (V m c main_v10 : S2048x128.Idx → EReal) (((cfg0.win 0).blk t).view.emb (ix2 q k)) = _
  have e : ((cfg0.win 0).blk t).view.emb (ix2 q k) = ix2 (⟨t.val / 128 * 1024 + q.val, hlt⟩ : Fin 2048) k := by
    funext a; apply Fin.ext
    match a with
    | ⟨0, _⟩ =>
      show win0_0.index t (0 : Fin 2) * 1024 + 1 * q.val = t.val / 128 * 1024 + q.val
      rw [e0, Nat.one_mul]
    | ⟨1, _⟩ =>
      show win0_0.index t (1 : Fin 2) * 128 + 1 * k.val = k.val
      rw [e1, Nat.zero_mul, Nat.one_mul, Nat.zero_add]
  rw [e]
  exact HostArr.hi_apply m c R hR _ _

/-- The same rows of the second operand: the zero residual. -/
theorem lo_blk (hR : HostArr.ArgsR m c R) (t : Fin cfg0.N) (q : Fin 1024) (k : Fin 128) :
    (loB m c t (ix2 q k) : EReal) = (((0 : ℝ) : ℝ) : EReal) := by
  obtain ⟨-, -, e0, e1, -⟩ := idx_facts t
  have ht := t_lt t
  have hq := q.isLt
  have hlt : t.val / 128 * 1024 + q.val < 2048 := by omega
  show (V m c main_v13 : S2048x128.Idx → EReal) (((cfg0.win 1).blk t).view.emb (ix2 q k)) = _
  have e : ((cfg0.win 1).blk t).view.emb (ix2 q k) = ix2 (⟨t.val / 128 * 1024 + q.val, hlt⟩ : Fin 2048) k := by
    funext a; apply Fin.ext
    match a with
    | ⟨0, _⟩ =>
      show win0_1.index t (0 : Fin 2) * 1024 + 1 * q.val = t.val / 128 * 1024 + q.val
      rw [e0, Nat.one_mul]
    | ⟨1, _⟩ =>
      show win0_1.index t (1 : Fin 2) * 128 + 1 * k.val = k.val
      rw [e1, Nat.zero_mul, Nat.one_mul, Nat.zero_add]
  rw [e]
  exact HostArr.lo_apply m c R hR _ _

/-- A global slot is below the number of memory slots: 128 blocks of 1024. -/
private theorem slot_lt (t : Fin cfg0.N) (l : Fin 1024) : t.val % 128 * 1024 + l.val < 131072 := by
  have hl := l.isLt
  have hm : t.val % 128 < 128 := Nat.mod_lt _ (by norm_num)
  omega

/-- Local slot l of the block of scaled squared norms is global slot 1024 * cc + l. -/
theorem ksq_blk (hR : HostArr.ArgsR m c R) (t : Fin cfg0.N) (u : Fin 1) (l : Fin 1024) :
    (ksqB m c t (ix2 u l) : EReal) = ((Cert.Spec.ksq R (slot t l) * Cert.Spec.it R : ℝ) : EReal) := by
  obtain ⟨-, -, -, -, e0, e1, -⟩ := idx_facts t
  show (V m c main_v18 : S1x131072.Idx → EReal) (((cfg0.win 2).blk t).view.emb (ix2 u l)) = _
  have e : ((cfg0.win 2).blk t).view.emb (ix2 u l)
      = ix2 u (⟨t.val % 128 * 1024 + l.val, slot_lt t l⟩ : Fin 131072) := by
    funext a; apply Fin.ext
    match a with
    | ⟨0, _⟩ =>
      show win0_2.index t (0 : Fin 2) * 1 + 1 * u.val = u.val
      rw [e0, Nat.zero_mul, Nat.one_mul, Nat.zero_add]
    | ⟨1, _⟩ =>
      show win0_2.index t (1 : Fin 2) * 1024 + 1 * l.val = t.val % 128 * 1024 + l.val
      rw [e1, Nat.one_mul]
  rw [e]
  exact HostArr.ksq_apply m c R hR _ _

/-- Local slot l of the block of keys is global slot 1024 * cc + l. -/
theorem keys_blk (hR : HostArr.ArgsR m c R) (t : Fin cfg0.N) (l : Fin 1024) (k : Fin 128) :
    (keysB m c t (ix2 l k) : EReal) = ((R.keys (slot t l) k.val : ℝ) : EReal) := by
  obtain ⟨-, -, -, -, -, -, e0, e1, -⟩ := idx_facts t
  show (V m c main_v19 : S131072x128.Idx → EReal) (((cfg0.win 3).blk t).view.emb (ix2 l k)) = _
  have e : ((cfg0.win 3).blk t).view.emb (ix2 l k)
      = ix2 (⟨t.val % 128 * 1024 + l.val, slot_lt t l⟩ : Fin 131072) k := by
    funext a; apply Fin.ext
    match a with
    | ⟨0, _⟩ =>
      show win0_3.index t (0 : Fin 2) * 1024 + 1 * l.val = t.val % 128 * 1024 + l.val
      rw [e0, Nat.one_mul]
    | ⟨1, _⟩ =>
      show win0_3.index t (1 : Fin 2) * 128 + 1 * k.val = k.val
      rw [e1, Nat.zero_mul, Nat.one_mul, Nat.zero_add]
  rw [e]
  exact HostArr.keys_apply m c R hR _ _

/-- Column l of the block of value rows is global slot 1024 * cc + l. -/
theorem v7_blk (hR : HostArr.ArgsR m c R) (t : Fin cfg0.N) (j : Fin 7) (l : Fin 1024) :
    (v7B m c t (ix2 j l) : EReal) = ((Cert.Spec.v7 R j.val (slot t l) : ℝ) : EReal) := by
  obtain ⟨-, -, -, -, -, -, -, -, e0, e1⟩ := idx_facts t
  show (V m c main_v23 : S7x131072.Idx → EReal) (((cfg0.win 4).blk t).view.emb (ix2 j l)) = _
  have e : ((cfg0.win 4).blk t).view.emb (ix2 j l)
      = ix2 j (⟨t.val % 128 * 1024 + l.val, slot_lt t l⟩ : Fin 131072) := by
    funext a; apply Fin.ext
    match a with
    | ⟨0, _⟩ =>
      show win0_4.index t (0 : Fin 2) * 7 + 1 * j.val = j.val
      rw [e0, Nat.zero_mul, Nat.one_mul, Nat.zero_add]
    | ⟨1, _⟩ =>
      show win0_4.index t (1 : Fin 2) * 1024 + 1 * l.val = t.val % 128 * 1024 + l.val
      rw [e1, Nat.one_mul]
  rw [e]
  exact HostArr.v7_apply m c R hR _ _

/-- A finite sum of reals, read on the extended reals, is the sum of the terms read there. -/
private theorem coe_sum {ι : Type} (s : Finset ι) (f : ι → ℝ) :
    ∑ i ∈ s, ((f i : ℝ) : EReal) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- The step's block of scores is the real score of global row against global slot. -/
theorem score_blk (hR : HostArr.ArgsR m c R) (t : Fin cfg0.N) (q l : Fin 1024) :
    k0_pay6 (F := Ideal) (keysB m c t) (hiB m c t) (loB m c t) (ksqB m c t) (ix2 q l)
      = ((Cert.Spec.score R (row t q) (slot t l) : ℝ) : EReal) := by
  rw [Pay.pay6_apply]
  simp only [hi_blk m c R hR, lo_blk m c R hR, ksq_blk m c R hR, keys_blk m c R hR]
  simp only [← EReal.coe_mul]
  rw [coe_sum, coe_sum, ← EReal.coe_add, ← EReal.coe_sub]
  unfold Cert.Spec.score
  rfl

end Cert.KernelIdeal.Blocks

end
-- ==== Proof.Pieces.lean ====
/-
  What one grid step leaves in the two carried scratch buffers and in the output block, as pure functions of what the
  step found: the running maximum becomes the step's maximum payload of the input blocks and the old maximum, the running
  sums the step's sum payload of the blocks, the old maximum and the old sums; at the first step of a batch tile the old
  maximum and sums are the reset values (the step stores them and reads them back); at the last step the output block is
  the result payload of the new running sums (read back after they are stored).
-/
import proofs.«403143_j42399917146658_3_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem Cert.KernelIdeal Cert.KernelIdeal.Gen
open Idealize.ShloMosaic.Pipeline (Dat)

variable {F : FTy → Type} [FloatOps F]

theorem hz : (![0, 0] : Fin 2 → Nat) = fun _ => 0 := funext fun a => by fin_cases a <;> rfl

/-- A middle step: the new running maximum. -/
theorem sout_B_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S7x1024 .bf16) (harg6 : arg6.IsWhole) (arg7 : Memref sig .tc .vmem S1024x6 .f32) (harg7 : arg7.IsWhole) (arg8 : Memref sig .tc .vmem S1024x1 .f32) (harg8 : arg8.IsWhole) (arg9 : Memref sig .tc .vmem S1024x7 .f32) (harg9 : arg9.IsWhole) (hc0 : ¬cond0_0 i) (hc1 : ¬cond0_1 i) (x0 : Vec F S1024x128 .bf16) (x1 : Vec F S1024x128 .bf16) (x2 : Vec F S1x1024 .f32) (x3 : Vec F S1024x128 .bf16) (x4 : Vec F S7x1024 .bf16) (xs0 : Vec F S1024x1 .f32) (xs1 : Vec F S1024x7 .f32) :
    sout0_B_0 c i arg2 harg2 arg3 harg3 arg4 harg4 arg5 harg5 arg6 harg6 arg7 harg7 arg8 harg8 arg9 harg9 hc0 hc1 x0 x1 x2 x3 x4 xs0 xs1 = k0_pay2 (k0_pay7 x3 x0 x1 x2 xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S1024x128) hz, View.ld_unit_zero (S := S1x1024) hz, View.ld_unit_zero (S := S7x1024) hz, View.ld_unit_zero (S := S1024x1) hz, View.ld_unit_zero (S := S1024x7) hz, View.ld_unit_zero (S := S1024x6) hz, View.readCov_unit_zero (S := S1024x1) _ hz, View.readCov_unit_zero (S := S1024x7) _ hz]

/-- A middle step: the new running sums. -/
theorem sout_B_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S7x1024 .bf16) (harg6 : arg6.IsWhole) (arg7 : Memref sig .tc .vmem S1024x6 .f32) (harg7 : arg7.IsWhole) (arg8 : Memref sig .tc .vmem S1024x1 .f32) (harg8 : arg8.IsWhole) (arg9 : Memref sig .tc .vmem S1024x7 .f32) (harg9 : arg9.IsWhole) (hc0 : ¬cond0_0 i) (hc1 : ¬cond0_1 i) (x0 : Vec F S1024x128 .bf16) (x1 : Vec F S1024x128 .bf16) (x2 : Vec F S1x1024 .f32) (x3 : Vec F S1024x128 .bf16) (x4 : Vec F S7x1024 .bf16) (xs0 : Vec F S1024x1 .f32) (xs1 : Vec F S1024x7 .f32) :
    sout0_B_1 c i arg2 harg2 arg3 harg3 arg4 harg4 arg5 harg5 arg6 harg6 arg7 harg7 arg8 harg8 arg9 harg9 hc0 hc1 x0 x1 x2 x3 x4 xs0 xs1 = k0_pay1 (k0_pay8 x3 x0 x1 x2 xs0 x4 xs1) := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S1024x128) hz, View.ld_unit_zero (S := S1x1024) hz, View.ld_unit_zero (S := S7x1024) hz, View.ld_unit_zero (S := S1024x1) hz, View.ld_unit_zero (S := S1024x7) hz, View.ld_unit_zero (S := S1024x6) hz, View.readCov_unit_zero (S := S1024x1) _ hz, View.readCov_unit_zero (S := S1024x7) _ hz]

/-- The last step: the new running maximum. -/
theorem sout_C_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S7x1024 .bf16) (harg6 : arg6.IsWhole) (arg7 : Memref sig .tc .vmem S1024x6 .f32) (harg7 : arg7.IsWhole) (arg8 : Memref sig .tc .vmem S1024x1 .f32) (harg8 : arg8.IsWhole) (arg9 : Memref sig .tc .vmem S1024x7 .f32) (harg9 : arg9.IsWhole) (hc0 : ¬cond0_0 i) (hc1 : cond0_1 i) (x0 : Vec F S1024x128 .bf16) (x1 : Vec F S1024x128 .bf16) (x2 : Vec F S1x1024 .f32) (x3 : Vec F S1024x128 .bf16) (x4 : Vec F S7x1024 .bf16) (xs0 : Vec F S1024x1 .f32) (xs1 : Vec F S1024x7 .f32) :
    sout0_C_0 c i arg2 harg2 arg3 harg3 arg4 harg4 arg5 harg5 arg6 harg6 arg7 harg7 arg8 harg8 arg9 harg9 hc0 hc1 x0 x1 x2 x3 x4 xs0 xs1 = k0_pay2 (k0_pay7 x3 x0 x1 x2 xs0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S1024x128) hz, View.ld_unit_zero (S := S1x1024) hz, View.ld_unit_zero (S := S7x1024) hz, View.ld_unit_zero (S := S1024x1) hz, View.ld_unit_zero (S := S1024x7) hz, View.ld_unit_zero (S := S1024x6) hz, View.readCov_unit_zero (S := S1024x1) _ hz, View.readCov_unit_zero (S := S1024x7) _ hz]

/-- The last step: the new running sums. -/
theorem sout_C_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S7x1024 .bf16) (harg6 : arg6.IsWhole) (arg7 : Memref sig .tc .vmem S1024x6 .f32) (harg7 : arg7.IsWhole) (arg8 : Memref sig .tc .vmem S1024x1 .f32) (harg8 : arg8.IsWhole) (arg9 : Memref sig .tc .vmem S1024x7 .f32) (harg9 : arg9.IsWhole) (hc0 : ¬cond0_0 i) (hc1 : cond0_1 i) (x0 : Vec F S1024x128 .bf16) (x1 : Vec F S1024x128 .bf16) (x2 : Vec F S1x1024 .f32) (x3 : Vec F S1024x128 .bf16) (x4 : Vec F S7x1024 .bf16) (xs0 : Vec F S1024x1 .f32) (xs1 : Vec F S1024x7 .f32) :
    sout0_C_1 c i arg2 harg2 arg3 harg3 arg4 harg4 arg5 harg5 arg6 harg6 arg7 harg7 arg8 harg8 arg9 harg9 hc0 hc1 x0 x1 x2 x3 x4 xs0 xs1 = k0_pay1 (k0_pay8 x3 x0 x1 x2 xs0 x4 xs1) := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S1024x128) hz, View.ld_unit_zero (S := S1x1024) hz, View.ld_unit_zero (S := S7x1024) hz, View.ld_unit_zero (S := S1024x1) hz, View.ld_unit_zero (S := S1024x7) hz, View.ld_unit_zero (S := S1024x6) hz, View.readCov_unit_zero (S := S1024x1) _ hz, View.readCov_unit_zero (S := S1024x7) _ hz]

/-- The last step: the output block is the result payload of the new running sums. -/
theorem out_C_5 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S7x1024 .bf16) (harg6 : arg6.IsWhole) (arg7 : Memref sig .tc .vmem S1024x6 .f32) (harg7 : arg7.IsWhole) (arg8 : Memref sig .tc .vmem S1024x1 .f32) (harg8 : arg8.IsWhole) (arg9 : Memref sig .tc .vmem S1024x7 .f32) (harg9 : arg9.IsWhole) (hc0 : ¬cond0_0 i) (hc1 : cond0_1 i) (x0 : Vec F S1024x128 .bf16) (x1 : Vec F S1024x128 .bf16) (x2 : Vec F S1x1024 .f32) (x3 : Vec F S1024x128 .bf16) (x4 : Vec F S7x1024 .bf16) (xs0 : Vec F S1024x1 .f32) (xs1 : Vec F S1024x7 .f32) :
    out0_C_5 c i arg2 harg2 arg3 harg3 arg4 harg4 arg5 harg5 arg6 harg6 arg7 harg7 arg8 harg8 arg9 harg9 hc0 hc1 x0 x1 x2 x3 x4 xs0 xs1 = k0_pay3 (k0_pay1 (k0_pay8 x3 x0 x1 x2 xs0 x4 xs1)) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S1024x128) hz, View.ld_unit_zero (S := S1x1024) hz, View.ld_unit_zero (S := S7x1024) hz, View.ld_unit_zero (S := S1024x1) hz, View.ld_unit_zero (S := S1024x7) hz, View.ld_unit_zero (S := S1024x6) hz, View.readCov_unit_zero (S := S1024x1) _ hz, View.readCov_unit_zero (S := S1024x7) _ hz]

/-- The first step of a batch tile: the new running maximum, over the reset value. -/
theorem sout_A_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S7x1024 .bf16) (harg6 : arg6.IsWhole) (arg7 : Memref sig .tc .vmem S1024x6 .f32) (harg7 : arg7.IsWhole) (arg8 : Memref sig .tc .vmem S1024x1 .f32) (harg8 : arg8.IsWhole) (arg9 : Memref sig .tc .vmem S1024x7 .f32) (harg9 : arg9.IsWhole) (hc0 : cond0_0 i) (hc1 : ¬cond0_1 i) (x0 : Vec F S1024x128 .bf16) (x1 : Vec F S1024x128 .bf16) (x2 : Vec F S1x1024 .f32) (x3 : Vec F S1024x128 .bf16) (x4 : Vec F S7x1024 .bf16) :
    sout0_A_0 c i arg2 harg2 arg3 harg3 arg4 harg4 arg5 harg5 arg6 harg6 arg7 harg7 arg8 harg8 arg9 harg9 hc0 hc1 x0 x1 x2 x3 x4 = k0_pay2 (k0_pay7 x3 x0 x1 x2 (k0_pay4 (F := F))) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg6.read_unread, harg7.read_unread, harg8.read_unread, harg9.read_unread, View.ld_unit_zero (S := S1024x128) hz, View.ld_unit_zero (S := S1x1024) hz, View.ld_unit_zero (S := S7x1024) hz, View.ld_unit_zero (S := S1024x1) hz, View.ld_unit_zero (S := S1024x7) hz, View.ld_unit_zero (S := S1024x6) hz, View.readCov_unit_zero (S := S1024x1) _ hz, View.readCov_unit_zero (S := S1024x7) _ hz]

/-- The first step of a batch tile: the new running sums, over the reset values. -/
theorem sout_A_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S7x1024 .bf16) (harg6 : arg6.IsWhole) (arg7 : Memref sig .tc .vmem S1024x6 .f32) (harg7 : arg7.IsWhole) (arg8 : Memref sig .tc .vmem S1024x1 .f32) (harg8 : arg8.IsWhole) (arg9 : Memref sig .tc .vmem S1024x7 .f32) (harg9 : arg9.IsWhole) (hc0 : cond0_0 i) (hc1 : ¬cond0_1 i) (x0 : Vec F S1024x128 .bf16) (x1 : Vec F S1024x128 .bf16) (x2 : Vec F S1x1024 .f32) (x3 : Vec F S1024x128 .bf16) (x4 : Vec F S7x1024 .bf16) :
    sout0_A_1 c i arg2 harg2 arg3 harg3 arg4 harg4 arg5 harg5 arg6 harg6 arg7 harg7 arg8 harg8 arg9 harg9 hc0 hc1 x0 x1 x2 x3 x4 = k0_pay1 (k0_pay8 x3 x0 x1 x2 (k0_pay4 (F := F)) x4 (k0_pay5 (F := F))) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x7) hz, View.readCov_unit_zero (S := S1024x7) _ hz]
  simp only [View.readAt_eq_ld, harg2.read_unread, harg3.read_unread, harg4.read_unread, harg5.read_unread, harg6.read_unread, harg7.read_unread, harg8.read_unread, harg9.read_unread, View.ld_unit_zero (S := S1024x128) hz, View.ld_unit_zero (S := S1x1024) hz, View.ld_unit_zero (S := S7x1024) hz, View.ld_unit_zero (S := S1024x1) hz, View.ld_unit_zero (S := S1024x7) hz, View.ld_unit_zero (S := S1024x6) hz, View.readCov_unit_zero (S := S1024x1) _ hz, View.readCov_unit_zero (S := S1024x7) _ hz]

end Cert.KernelIdeal.Pieces

end
-- ==== Proof.PayAcc.lean ====
/-
  One grid step of the kernel, read at an entry on the extended reals: the running weighted sums and the final result.

  With p (q, l) = exp (score (q, l) - new maximum (q)) and v7 (7 x 1024) the block of value rows (the seventh the constant one):
      new sum (q, j) = exp (old maximum (q) - new maximum (q)) * old sum (q, j) + sum_l p (q, l) * v7 (j, l),
  and after the last block    result (q, j) = tanh (sum (q, j) / sum (q, 6))   for j < 6.
  At the first block the old maximum is minus infinity and the old sum zero: exp of minus infinity is 0 and the first term vanishes.
-/
import proofs.«403143_j42399917146658_3_alg».proof.Proof.PayMax

noncomputable section

open scoped BigOperators

namespace Cert.KernelIdeal.Pay

open Idealize.ShloMosaic Idealize.ShloMosaic.TcCoe Idealize.ShloMosaic.ValueIdx Cert.KernelIdeal Cert.KernelIdeal.Gen

variable (keysB hiB loB : Vec Ideal S1024x128 .bf16) (ksqB : Vec Ideal S1x1024 .f32) (mprev : Vec Ideal S1024x1 .f32)
  (v7B : Vec Ideal S7x1024 .bf16) (accprev : Vec Ideal S1024x7 .f32)

/-- The reset value of the running sums is zero everywhere. -/
theorem pay5_apply (y : S1024x7.Idx) : k0_pay5 (F := Ideal) y = (0 : EReal) := by
  unfold k0_pay5
  rw [shapeCast_self]
  exact Ideal.ofBits_zero_f32

/-- Storing the running sums changes nothing (a cast between equal shapes). -/
theorem pay1_eq (v : FVec Ideal S1024x7 .f32) : k0_pay1 (F := Ideal) v = v := by
  unfold k0_pay1
  exact shapeCast_self _ _

/-- A column [a, 1] broadcast over the columns to [a, b] reads, at (r, q), the column's entry of row r. -/
private theorem broadcastTo_a1_ab_apply {α : Type} {a b : ℕ} (v : (⟨2, ![a, 1]⟩ : Shape).Idx → α)
    (h : (⟨2, ![a, 1]⟩ : Shape).Broadcasts ⟨2, ![a, b]⟩) (r : Fin a) (q : Fin b) :
    broadcastTo ⟨2, ![a, b]⟩ v h (ix2 r q) = v (ix2 r (0 : Fin 1)) := by
  refine broadcastTo_apply v h (ix2 r q) (ix2 r (0 : Fin 1)) fun ax => ?_
  match ax with
  | ⟨0, _⟩ =>
    show r.val = if a = 1 then 0 else r.val
    split
    · have := r.isLt; omega
    · rfl
  | ⟨1, _⟩ => rfl

/-- The quotient of two reals, the denominator nonzero, is the real quotient. -/
private theorem div_coe_coe (x y : ℝ) (h : y ≠ 0) : Ideal.div (x : EReal) (y : EReal) = ((x / y : ℝ) : EReal) := by
  rw [Ideal.div_coe h, ← EReal.coe_mul, mul_one_div]

/-- A finite sum of real numbers, read on the extended reals, is the real sum. -/
private theorem coe_sum {ι : Type} (s : Finset ι) (f : ι → ℝ) :
    ∑ l ∈ s, ((f l : ℝ) : EReal) = ((∑ l ∈ s, f l : ℝ) : EReal) := by
  classical
  induction s using Finset.induction_on with
  | empty => simp
  | insert a s ha ih => rw [Finset.sum_insert ha, Finset.sum_insert ha, ih, EReal.coe_add]

/-- The running sum at an index: the rescaled old sum plus the product of the weights with the value rows. -/
private theorem pay8_unfold (y : S1024x7.Idx) :
    k0_pay8 (F := Ideal) keysB hiB loB ksqB mprev v7B accprev y
      = broadcastTo S1024x7 (Idealize.ShloMosaic.exp (subf mprev (k0_pay7 (F := Ideal) keysB hiB loB ksqB mprev)))
            broadcasts_S1024x1_S1024x7 y * accprev y
        + matmul (DotDims.transposedRhs 1024 1024 7) none
            (truncf .bf16 (Idealize.ShloMosaic.exp (subf (k0_pay6 (F := Ideal) keysB hiB loB ksqB)
              (broadcastTo S1024x1024 (k0_pay7 (F := Ideal) keysB hiB loB ksqB mprev) broadcasts_S1024x1_S1024x1024)))
              bitsLt_bf16_f32)
            (shapeCast S7x1024 v7B shapeCasts_S7x1024_S7x1024 : FVec Ideal S7x1024 .bf16) (constant S1024x7 .f32 0x00000000#32) y := rfl

/-- The weight at (q, l): exp of the score less the new maximum of row q. -/
private theorem weight_apply (q l : Fin 1024) :
    (truncf .bf16 (Idealize.ShloMosaic.exp (subf (k0_pay6 (F := Ideal) keysB hiB loB ksqB)
        (broadcastTo S1024x1024 (k0_pay7 (F := Ideal) keysB hiB loB ksqB mprev) broadcasts_S1024x1_S1024x1024)))
        bitsLt_bf16_f32 : FVec Ideal S1024x1024 .bf16) (ix2 q l)
      = Ideal.exp (k0_pay6 (F := Ideal) keysB hiB loB ksqB (ix2 q l)
          - k0_pay7 (F := Ideal) keysB hiB loB ksqB mprev (ix2 q (0 : Fin 1))) :=
  congrArg (fun t => Ideal.exp (k0_pay6 (F := Ideal) keysB hiB loB ksqB (ix2 q l) - t))
    (broadcastTo_a1_ab_apply (k0_pay7 (F := Ideal) keysB hiB loB ksqB mprev) broadcasts_S1024x1_S1024x1024 q l)

/-- The rescaling factor at (q, j): exp of the old maximum of row q less the new one. -/
private theorem scale_apply (q : Fin 1024) (j : Fin 7) :
    broadcastTo S1024x7 (Idealize.ShloMosaic.exp (subf mprev (k0_pay7 (F := Ideal) keysB hiB loB ksqB mprev)))
        broadcasts_S1024x1_S1024x7 (ix2 q j)
      = Ideal.exp ((mprev (ix2 q (0 : Fin 1)) : EReal)
          - k0_pay7 (F := Ideal) keysB hiB loB ksqB mprev (ix2 q (0 : Fin 1))) :=
  broadcastTo_a1_ab_apply (Idealize.ShloMosaic.exp (subf mprev (k0_pay7 (F := Ideal) keysB hiB loB ksqB mprev)))
    broadcasts_S1024x1_S1024x7 q j

/-- The product of the weights with the value rows at (q, j), scores and values real, the new maximum the real m. -/
private theorem mm_apply (q : Fin 1024) (j : Fin 7) (sb vb : Fin 1024 → ℝ)
    (hs : ∀ l, k0_pay6 (F := Ideal) keysB hiB loB ksqB (ix2 q l) = ((sb l : ℝ) : EReal))
    (hv : ∀ l, (v7B (ix2 j l) : EReal) = ((vb l : ℝ) : EReal))
    (m : ℝ) (h7 : k0_pay7 (F := Ideal) keysB hiB loB ksqB mprev (ix2 q (0 : Fin 1)) = ((m : ℝ) : EReal)) :
    matmul (DotDims.transposedRhs 1024 1024 7) none
        (truncf .bf16 (Idealize.ShloMosaic.exp (subf (k0_pay6 (F := Ideal) keysB hiB loB ksqB)
          (broadcastTo S1024x1024 (k0_pay7 (F := Ideal) keysB hiB loB ksqB mprev) broadcasts_S1024x1_S1024x1024)))
          bitsLt_bf16_f32)
        (shapeCast S7x1024 v7B shapeCasts_S7x1024_S7x1024 : FVec Ideal S7x1024 .bf16)
        (constant S1024x7 .f32 0x00000000#32) (ix2 q j)
      = ((∑ l : Fin 1024, Real.exp (sb l - m) * vb l : ℝ) : EReal) := by
  refine (Cert.LibTransposedRhs.matmul_transposedRhs_zero_any 1024 1024 7 _ _ q j).trans ?_
  rw [← coe_sum]
  refine Finset.sum_congr rfl fun l _ => ?_
  rw [weight_apply, hs, h7, shapeCast_self, hv, ← EReal.coe_sub, Ideal.exp_coe, ← EReal.coe_mul]

/-- The new running sum at (q, j) when the new maximum of row q is the real m; the old maximum and the old sum are
    left on the extended reals. -/
private theorem pay8_core (q : Fin 1024) (j : Fin 7) (sb vb : Fin 1024 → ℝ)
    (hs : ∀ l, k0_pay6 (F := Ideal) keysB hiB loB ksqB (ix2 q l) = ((sb l : ℝ) : EReal))
    (hv : ∀ l, (v7B (ix2 j l) : EReal) = ((vb l : ℝ) : EReal))
    (m : ℝ) (h7 : k0_pay7 (F := Ideal) keysB hiB loB ksqB mprev (ix2 q (0 : Fin 1)) = ((m : ℝ) : EReal)) :
    k0_pay8 (F := Ideal) keysB hiB loB ksqB mprev v7B accprev (ix2 q j)
      = Ideal.exp ((mprev (ix2 q (0 : Fin 1)) : EReal) - ((m : ℝ) : EReal)) * (accprev (ix2 q j) : EReal)
        + ((∑ l : Fin 1024, Real.exp (sb l - m) * vb l : ℝ) : EReal) := by
  rw [pay8_unfold, scale_apply, mm_apply keysB hiB loB ksqB mprev v7B q j sb vb hs hv m h7, h7]

/-- The new running sum at (q, j), all data real: old maximum M, old sum A, scores sb, value row vb. -/
theorem pay8_real (q : Fin 1024) (j : Fin 7) (sb vb : Fin 1024 → ℝ)
    (hs : ∀ l, k0_pay6 (F := Ideal) keysB hiB loB ksqB (ix2 q l) = ((sb l : ℝ) : EReal))
    (hv : ∀ l, (v7B (ix2 j l) : EReal) = ((vb l : ℝ) : EReal))
    (M : ℝ) (hm : (mprev (ix2 q (0 : Fin 1)) : EReal) = ((M : ℝ) : EReal))
    (A : ℝ) (hA : (accprev (ix2 q j) : EReal) = ((A : ℝ) : EReal)) :
    k0_pay8 (F := Ideal) keysB hiB loB ksqB mprev v7B accprev (ix2 q j)
      = ((Real.exp (M - max M (Finset.univ.sup' Finset.univ_nonempty sb)) * A
          + ∑ l : Fin 1024, Real.exp (sb l - max M (Finset.univ.sup' Finset.univ_nonempty sb)) * vb l : ℝ) : EReal) := by
  rw [pay8_core keysB hiB loB ksqB mprev v7B accprev q j sb vb hs hv _
      (pay7_real keysB hiB loB ksqB mprev q sb hs M hm),
    hm, hA, ← EReal.coe_sub, Ideal.exp_coe, ← EReal.coe_mul, ← EReal.coe_add]

/-- The same at the first block: old maximum minus infinity, old sum zero. -/
theorem pay8_real_first (q : Fin 1024) (j : Fin 7) (sb vb : Fin 1024 → ℝ)
    (hs : ∀ l, k0_pay6 (F := Ideal) keysB hiB loB ksqB (ix2 q l) = ((sb l : ℝ) : EReal))
    (hv : ∀ l, (v7B (ix2 j l) : EReal) = ((vb l : ℝ) : EReal))
    (hm : (mprev (ix2 q (0 : Fin 1)) : EReal) = (⊥ : EReal))
    (hA : (accprev (ix2 q j) : EReal) = (0 : EReal)) :
    k0_pay8 (F := Ideal) keysB hiB loB ksqB mprev v7B accprev (ix2 q j)
      = ((∑ l : Fin 1024, Real.exp (sb l - Finset.univ.sup' Finset.univ_nonempty sb) * vb l : ℝ) : EReal) := by
  rw [pay8_core keysB hiB loB ksqB mprev v7B accprev q j sb vb hs hv _
      (pay7_real_first keysB hiB loB ksqB mprev q sb hs hm),
    hm, hA, EReal.bot_sub, Ideal.exp_bot, zero_mul, zero_add]

/-- The result at an index: tanh of the first six columns over the seventh, broadcast along the row. -/
private theorem pay3_unfold (acc : Vec Ideal S1024x7 .f32) (y : S1024x6.Idx) :
    k0_pay3 (F := Ideal) acc y = Ideal.tanh (Ideal.div
      (extractStridedSlice S1024x6 ![0, 0] acc slices_S1024x7_o0_0_S1024x6 y)
      (broadcastTo S1024x6 (extractStridedSlice S1024x1 ![0, 6] acc slices_S1024x7_o0_6_S1024x1)
        broadcasts_S1024x1_S1024x6 y)) := rfl

/-- The first six columns of the running sums at (q, j): the entry (q, j). -/
private theorem slice_lo_apply (acc : Vec Ideal S1024x7 .f32) (q : Fin 1024) (j : Fin 6) :
    extractStridedSlice S1024x6 ![0, 0] acc slices_S1024x7_o0_0_S1024x6 (ix2 q j)
      = acc (ix2 q (⟨j.val, by omega⟩ : Fin 7)) :=
  extractStridedSlice_apply _ _ _ _ _ (fun ax => by
    match ax with
    | ⟨0, _⟩ => exact (Nat.zero_add _).symm
    | ⟨1, _⟩ => exact (Nat.zero_add _).symm)

/-- The seventh column of the running sums at (q, 0): the entry (q, 6). -/
private theorem slice_last_apply (acc : Vec Ideal S1024x7 .f32) (q : Fin 1024) :
    extractStridedSlice S1024x1 ![0, 6] acc slices_S1024x7_o0_6_S1024x1 (ix2 q (0 : Fin 1))
      = acc (ix2 q (6 : Fin 7)) :=
  extractStridedSlice_apply _ _ _ _ _ (fun ax => by
    match ax with
    | ⟨0, _⟩ => exact (Nat.zero_add _).symm
    | ⟨1, _⟩ => rfl)

/-- The result at (q, j) from real running sums with a nonzero normaliser. -/
theorem pay3_real (acc : Vec Ideal S1024x7 .f32) (q : Fin 1024) (j : Fin 6) (A A6 : ℝ)
    (hA : (acc (ix2 q (⟨j.val, by omega⟩ : Fin 7)) : EReal) = ((A : ℝ) : EReal))
    (h6 : (acc (ix2 q (6 : Fin 7)) : EReal) = ((A6 : ℝ) : EReal)) (h0 : A6 ≠ 0) :
    k0_pay3 (F := Ideal) acc (ix2 q j) = ((Real.tanh (A / A6) : ℝ) : EReal) := by
  rw [pay3_unfold, broadcastTo_a1_ab_apply, slice_lo_apply, slice_last_apply, hA, h6, div_coe_coe A A6 h0,
    Ideal.tanh_coe]

end Cert.KernelIdeal.Pay

end
-- ==== Proof.Invariant.lean ====
/-
  The running maximum and the running sums the kernel carries in its two scratch buffers, after every grid point.

  Point t = 128 * i + cc handles batch tile i and memory tile cc.  After it, row q of the maximum scratch holds the real
  running maximum of the scores of global row 1024 * i + q over the first cc + 1 tiles, and entry (q, j) of the sum scratch
  the real running sum for value row j: by induction on the point.  At cc = 0 the step first resets both scratch buffers
  (minus infinity, zero) and the recursions start; at cc > 0 the step continues from what the point before left, which is
  the same batch tile's previous memory tile.
-/
import proofs.«403143_j42399917146658_3_alg».proof.Proof.Blocks
import proofs.«403143_j42399917146658_3_alg».proof.Proof.Pieces
import proofs.«403143_j42399917146658_3_alg».proof.Proof.PayAcc
import proofs.«403143_j42399917146658_3_alg».proof.Proof.OnlineDefs

set_option maxRecDepth 16384

noncomputable section

open scoped BigOperators

namespace Cert.KernelIdeal.Inv

open Idealize.ShloMosaic Idealize.ShloMosaic.TcCoe Idealize.SL.Sem Idealize.ShloMosaic.ValueIdx Cert.KernelIdeal Cert.KernelIdeal.Gen
open Cert.KernelIdeal.Blocks Cert.OnlineSoftmax

variable (m : (ℓ : Loc nD τ sig) → Buf (Elt Ideal) ℓ) (c : Dev nD) (R : Cert.Spec.RealIn)

/-- The scratch buffers' contents after point n. -/
abbrev mAt (n : ℕ) (hn : n < cfg0.N) : Vec Ideal S1024x1 .f32 := (outsAt0 m c n hn).2.1
abbrev accAt (n : ℕ) (hn : n < cfg0.N) : Vec Ideal S1024x7 .f32 := (outsAt0 m c n hn).2.2

theorem N256 : cfg0.N = 256 := N_0

/-- The first point of a batch tile: the maximum over the reset value. -/
theorem mAt_first (t : Fin cfg0.N) (h0 : t.val % 128 = 0) :
    mAt m c t.val t.isLt
      = k0_pay7 (F := Ideal) (keysB m c t) (hiB m c t) (loB m c t) (ksqB m c t) (k0_pay4 (F := Ideal)) := by
  have h1 : ¬t.val % 128 = 127 := by omega
  show (outsAt0 m c t.val t.isLt).2.1 = _
  rw [outsAt0_A m c t h0 h1]
  dsimp only
  exact (Pieces.sout_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)).trans (Pay.pay2_eq _)

/-- The first point of a batch tile: the sums over the reset values. -/
theorem accAt_first (t : Fin cfg0.N) (h0 : t.val % 128 = 0) :
    accAt m c t.val t.isLt
      = k0_pay8 (F := Ideal) (keysB m c t) (hiB m c t) (loB m c t) (ksqB m c t) (k0_pay4 (F := Ideal)) (v7B m c t) (k0_pay5 (F := Ideal)) := by
  have h1 : ¬t.val % 128 = 127 := by omega
  show (outsAt0 m c t.val t.isLt).2.2 = _
  rw [outsAt0_A m c t h0 h1]
  dsimp only
  exact (Pieces.sout_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)).trans (Pay.pay1_eq _)

/-- A later point: the maximum over what the point before left. -/
theorem mAt_next (t : Fin cfg0.N) (h0 : ¬t.val % 128 = 0) :
    mAt m c t.val t.isLt
      = k0_pay7 (F := Ideal) (keysB m c t) (hiB m c t) (loB m c t) (ksqB m c t)
          (mAt m c (t.val - 1) (Nat.lt_of_le_of_lt (Nat.sub_le _ _) t.isLt)) := by
  show (outsAt0 m c t.val t.isLt).2.1 = _
  by_cases h1 : t.val % 128 = 127
  · rw [outsAt0_C m c t h0 h1]
    dsimp only
    exact (Pieces.sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2).trans (Pay.pay2_eq _)
  · rw [outsAt0_B m c t h0 h1]
    dsimp only
    exact (Pieces.sout_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2).trans (Pay.pay2_eq _)

/-- A later point: the sums over what the point before left. -/
theorem accAt_next (t : Fin cfg0.N) (h0 : ¬t.val % 128 = 0) :
    accAt m c t.val t.isLt
      = k0_pay8 (F := Ideal) (keysB m c t) (hiB m c t) (loB m c t) (ksqB m c t)
          (mAt m c (t.val - 1) (Nat.lt_of_le_of_lt (Nat.sub_le _ _) t.isLt)) (v7B m c t)
          (accAt m c (t.val - 1) (Nat.lt_of_le_of_lt (Nat.sub_le _ _) t.isLt)) := by
  show (outsAt0 m c t.val t.isLt).2.2 = _
  by_cases h1 : t.val % 128 = 127
  · rw [outsAt0_C m c t h0 h1]
    dsimp only
    exact (Pieces.sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2).trans (Pay.pay1_eq _)
  · rw [outsAt0_B m c t h0 h1]
    dsimp only
    exact (Pieces.sout_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2).trans (Pay.pay1_eq _)

/-- The last point of a batch tile: the output block is the result payload of the sums just stored. -/
theorem out_last (t : Fin cfg0.N) (h1 : t.val % 128 = 127) :
    (outsAt0 m c t.val t.isLt).1 = k0_pay3 (F := Ideal) (accAt m c t.val t.isLt) := by
  have h0 : ¬t.val % 128 = 0 := by omega
  show _ = k0_pay3 (F := Ideal) (outsAt0 m c t.val t.isLt).2.2
  rw [outsAt0_C m c t h0 h1]
  dsimp only
  rw [Pieces.sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2]
  exact Pieces.out_C_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2

end Cert.KernelIdeal.Inv

end
-- ==== Proof.InvariantReal.lean ====
/-
  The scratch contents after every grid point are the real running maximum and running sums of the blockwise softmax:
  the induction over the points, from the step equations and the step read on the reals.
-/
import proofs.«403143_j42399917146658_3_alg».proof.Proof.Invariant

set_option maxRecDepth 16384

noncomputable section

open scoped BigOperators

namespace Cert.KernelIdeal.Inv

open Idealize.ShloMosaic Idealize.ShloMosaic.TcCoe Idealize.SL.Sem Idealize.ShloMosaic.ValueIdx Cert.KernelIdeal Cert.KernelIdeal.Gen
open Cert.KernelIdeal.Blocks Cert.OnlineSoftmax

variable (m : (ℓ : Loc nD τ sig) → Buf (Elt Ideal) ℓ) (c : Dev nD) (R : Cert.Spec.RealIn)

theorem runMax_zero (s : ℕ → ℝ) : runMax s 0 = blockMax s 0 := by rw [runMax]
theorem runMax_succ (s : ℕ → ℝ) (k : ℕ) : runMax s (k + 1) = max (runMax s k) (blockMax s (k + 1)) := by rw [runMax]
theorem runAcc_zero (s v : ℕ → ℝ) : runAcc s v 0 = blockSum s v (runMax s 0) 0 := by rw [runAcc]
theorem runAcc_succ (s v : ℕ → ℝ) (k : ℕ) :
    runAcc s v (k + 1) = Real.exp (runMax s k - runMax s (k + 1)) * runAcc s v k + blockSum s v (runMax s (k + 1)) (k + 1) := by
  rw [runAcc]

/-- The scores of row q's block at point t, as a real family over the local slots. -/
abbrev sb (t : Fin cfg0.N) (q : Fin 1024) : Fin 1024 → ℝ := fun l => Cert.Spec.score R (row t q) (slot t l)
/-- Value row j's block at point t. -/
abbrev vb (t : Fin cfg0.N) (j : Fin 7) : Fin 1024 → ℝ := fun l => Cert.Spec.v7 R j.val (slot t l)

theorem sup_sb (t : Fin cfg0.N) (q : Fin 1024) :
    Finset.univ.sup' Finset.univ_nonempty (sb R t q) = blockMax (Cert.Spec.score R (row t q)) (t.val % 128) := rfl

theorem sum_sb (t : Fin cfg0.N) (q : Fin 1024) (j : Fin 7) (M : ℝ) :
    ∑ l : Fin 1024, Real.exp (sb R t q l - M) * vb R t j l
      = blockSum (Cert.Spec.score R (row t q)) (Cert.Spec.v7 R j.val) M (t.val % 128) := rfl

/-- The first point of a batch tile, maximum. -/
theorem first_max (hR : HostArr.ArgsR m c R) (t : Fin cfg0.N) (h0 : t.val % 128 = 0) (q : Fin 1024) :
    (mAt m c t.val t.isLt (ix2 q (0 : Fin 1)) : EReal)
      = ((blockMax (Cert.Spec.score R (row t q)) (t.val % 128) : ℝ) : EReal) := by
  rw [mAt_first m c t h0, ← sup_sb]
  exact Pay.pay7_real_first (keysB m c t) (hiB m c t) (loB m c t) (ksqB m c t) (k0_pay4 (F := Ideal)) q (sb R t q)
    (fun l => score_blk m c R hR t q l) (Pay.pay4_apply _)

/-- The first point of a batch tile, sums. -/
theorem first_acc (hR : HostArr.ArgsR m c R) (t : Fin cfg0.N) (h0 : t.val % 128 = 0) (q : Fin 1024) (j : Fin 7) :
    (accAt m c t.val t.isLt (ix2 q j) : EReal)
      = ((blockSum (Cert.Spec.score R (row t q)) (Cert.Spec.v7 R j.val)
            (blockMax (Cert.Spec.score R (row t q)) (t.val % 128)) (t.val % 128) : ℝ) : EReal) := by
  rw [accAt_first m c t h0, ← sup_sb, ← sum_sb]
  exact Pay.pay8_real_first (keysB m c t) (hiB m c t) (loB m c t) (ksqB m c t) (k0_pay4 (F := Ideal)) (v7B m c t) (k0_pay5 (F := Ideal)) q j
    (sb R t q) (vb R t j) (fun l => score_blk m c R hR t q l) (fun l => v7_blk m c R hR t j l) (Pay.pay4_apply _) (Pay.pay5_apply _)

/-- A later point, maximum, over a real old maximum. -/
theorem next_max (hR : HostArr.ArgsR m c R) (t : Fin cfg0.N) (h0 : ¬t.val % 128 = 0) (q : Fin 1024) (M : ℝ)
    (hm : (mAt m c (t.val - 1) (Nat.lt_of_le_of_lt (Nat.sub_le _ _) t.isLt) (ix2 q (0 : Fin 1)) : EReal) = ((M : ℝ) : EReal)) :
    (mAt m c t.val t.isLt (ix2 q (0 : Fin 1)) : EReal)
      = ((max M (blockMax (Cert.Spec.score R (row t q)) (t.val % 128)) : ℝ) : EReal) := by
  rw [mAt_next m c t h0, ← sup_sb]
  exact Pay.pay7_real (keysB m c t) (hiB m c t) (loB m c t) (ksqB m c t) _ q (sb R t q)
    (fun l => score_blk m c R hR t q l) M hm

/-- A later point, sums, over a real old maximum and real old sums. -/
theorem next_acc (hR : HostArr.ArgsR m c R) (t : Fin cfg0.N) (h0 : ¬t.val % 128 = 0) (q : Fin 1024) (j : Fin 7) (M A : ℝ)
    (hm : (mAt m c (t.val - 1) (Nat.lt_of_le_of_lt (Nat.sub_le _ _) t.isLt) (ix2 q (0 : Fin 1)) : EReal) = ((M : ℝ) : EReal))
    (hA : (accAt m c (t.val - 1) (Nat.lt_of_le_of_lt (Nat.sub_le _ _) t.isLt) (ix2 q j) : EReal) = ((A : ℝ) : EReal)) :
    (accAt m c t.val t.isLt (ix2 q j) : EReal)
      = ((Real.exp (M - max M (blockMax (Cert.Spec.score R (row t q)) (t.val % 128))) * A
          + blockSum (Cert.Spec.score R (row t q)) (Cert.Spec.v7 R j.val)
              (max M (blockMax (Cert.Spec.score R (row t q)) (t.val % 128))) (t.val % 128) : ℝ) : EReal) := by
  rw [accAt_next m c t h0, ← sup_sb, ← sum_sb]
  exact Pay.pay8_real (keysB m c t) (hiB m c t) (loB m c t) (ksqB m c t) _ (v7B m c t) _ q j
    (sb R t q) (vb R t j) (fun l => score_blk m c R hR t q l) (fun l => v7_blk m c R hR t j l) M hm A hA

/-- After every point the scratch buffers hold the running maximum and sums of the point's batch tile up to its memory tile. -/
theorem inv (hR : HostArr.ArgsR m c R) (n : ℕ) : ∀ hn : n < cfg0.N,
    (∀ q : Fin 1024, (mAt m c n hn (ix2 q (0 : Fin 1)) : EReal)
        = ((runMax (Cert.Spec.score R (n / 128 * 1024 + q.val)) (n % 128) : ℝ) : EReal))
    ∧ (∀ (q : Fin 1024) (j : Fin 7), (accAt m c n hn (ix2 q j) : EReal)
        = ((runAcc (Cert.Spec.score R (n / 128 * 1024 + q.val)) (Cert.Spec.v7 R j.val) (n % 128) : ℝ) : EReal)) := by
  induction n with
  | zero =>
    intro hn
    refine ⟨fun q => ?_, fun q j => ?_⟩
    · have h := first_max m c R hR ⟨0, hn⟩ rfl q
      rw [runMax_zero]; exact h
    · have h := first_acc m c R hR ⟨0, hn⟩ rfl q j
      rw [runAcc_zero, runMax_zero]; exact h
  | succ k ih =>
    intro hn
    have hk : k < cfg0.N := Nat.lt_of_succ_lt hn
    obtain ⟨ihm, iha⟩ := ih hk
    by_cases h0 : (k + 1) % 128 = 0
    · refine ⟨fun q => ?_, fun q j => ?_⟩
      · have h := first_max m c R hR ⟨k + 1, hn⟩ h0 q
        dsimp only at h
        rw [h0] at h ⊢
        rw [runMax_zero]; exact h
      · have h := first_acc m c R hR ⟨k + 1, hn⟩ h0 q j
        dsimp only at h
        rw [h0] at h ⊢
        rw [runAcc_zero, runMax_zero]; exact h
    · have e1 : (k + 1) / 128 = k / 128 := by omega
      have e2 : (k + 1) % 128 = k % 128 + 1 := by omega
      refine ⟨fun q => ?_, fun q j => ?_⟩
      · have h := next_max m c R hR ⟨k + 1, hn⟩ h0 q _ (ihm q)
        dsimp only [row] at h
        rw [e1, e2] at h ⊢
        rw [runMax_succ]; exact h
      · have h := next_acc m c R hR ⟨k + 1, hn⟩ h0 q j _ _ (ihm q) (iha q j)
        dsimp only [row] at h
        rw [e1, e2] at h ⊢
        rw [runAcc_succ, runMax_succ]; exact h

end Cert.KernelIdeal.Inv

end
-- ==== Proof.Cover.lean ====
/-
  The output's blocks: at the last step of batch tile i the pipeline writes back block (i, 0) of the 2048 x 6 result, the
  rows 1024 * i .. 1024 * i + 1023, all six columns; the two write-backs (points 127 and 255) together cover the array.
-/
import proofs.«403143_j42399917146658_3_alg».proof.Proof.Gen.KernelIdeal.Frame
import Idealize.ShloMosaic.Lib.Pipeline.Value
import Idealize.ShloMosaic.Lib.ValueIdx

set_option maxRecDepth 16384

noncomputable section

namespace Cert.KernelIdeal.Cover

open Idealize.ShloMosaic Idealize.ShloMosaic.TcCoe Idealize.SL.Sem Idealize.ShloMosaic.ValueIdx Cert.KernelIdeal Cert.KernelIdeal.Gen

variable {F : FTy → Type} [FloatOps F]

/-- The output window's block index at point t is (t / 128, 0). -/
theorem idx5 : ∀ t : Fin cfg0.N, win0_5.index t (0 : Fin 2) = t.val / 128 ∧ win0_5.index t (1 : Fin 2) = 0 :=
  (by decide +kernel : ∀ t : Fin grid0.N, _)

/-- The array index of entry (q, j) of the output block at point t. -/
theorem emb5 (t : Fin cfg0.N) (q : Fin 1024) (j : Fin 6) (hlt : t.val / 128 * 1024 + q.val < 2048) :
    ((cfg0.win 5).blk t).view.emb (ix2 q j) = (ix2 (⟨t.val / 128 * 1024 + q.val, hlt⟩ : Fin 2048) j : S2048x6.Idx) := by
  -- on each axis a block's array coordinate is block index * block size + the coordinate inside the block
  funext a; apply Fin.ext
  match a with
  | ⟨0, _⟩ =>
    show win0_5.index t (0 : Fin 2) * 1024 + 1 * q.val = t.val / 128 * 1024 + q.val
    rw [(idx5 t).1]; omega
  | ⟨1, _⟩ =>
    show win0_5.index t (1 : Fin 2) * 6 + 1 * j.val = j.val
    rw [(idx5 t).2]; omega

/-- An entry of the result is in the block of point t iff, on each axis, its coordinate is in that block's range. -/
private theorem mem_blk5 (t : Fin cfg0.N) (i : S2048x6.Idx) :
    i ∈ ((cfg0.win 5).blk t).view.set ↔ ∀ a : Fin 2, win0_5.index t a * S1024x6.size a ≤ (i a).val
      ∧ (i a).val < win0_5.index t a * S1024x6.size a + S1024x6.size a := by
  show i ∈ ((View.whole main_v24).slice (win0_5.rect t)).set ↔ _
  rw [View.set_slice_whole, Rect.mem_set_unit]
  exact Iff.rfl

/-- Every entry of the result lies in the block written back at the last step of its batch tile. -/
theorem cover5 (i : S2048x6.Idx) :
    ∃ t : Fin cfg0.N, (cfg0.win 5).flush t = true ∧ i ∈ ((cfg0.win 5).blk t).view.set := by
  have h0 : (i 0).val < 2048 := (i 0).isLt
  have h1 : (i 1).val < 6 := (i 1).isLt
  have hN : cfg0.N = 256 := N_0
  -- row r lies in batch tile r / 1024, whose last step is the point (r / 1024) * 128 + 127
  obtain ⟨t, ht⟩ : ∃ t : Fin cfg0.N, t.val = (i 0).val / 1024 * 128 + 127 := ⟨⟨_, by omega⟩, rfl⟩
  obtain ⟨e0, e1⟩ := idx5 t
  refine ⟨t, (flush0_5 t).mpr (by omega), ?_⟩
  rw [mem_blk5]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 6 ≤ (i 1).val ∧ (i 1).val < win0_5.index t (1 : Fin 2) * 6 + 6
    omega

end Cert.KernelIdeal.Cover

end
-- ==== Proof.Tail.lean ====
/-
  The one host operation after the region broadcasts std (an array of one entry) over the 2048 x 6 second result:
  every entry is std's one entry; the region's own arrays and the arguments do not enter it.
-/
import proofs.«403143_j42399917146658_3_alg».proof.Proof.Gen.KernelIdeal.Frame
import proofs.«403143_j42399917146658_3_alg».proof.Proof.HostArrays
import Idealize.ShloMosaic.Lib.Pipeline.Value
import Idealize.ShloMosaic.Lib.StableHlo.Run
import Idealize.ShloMosaic.Lib.ValueIdx

noncomputable section

namespace Cert.KernelIdeal.Tail

open Idealize.ShloMosaic Idealize.ShloMosaic.TcCoe Idealize.SL.Sem Idealize.ShloMosaic.ValueIdx Cert.KernelIdeal Cert.KernelIdeal.Gen
open Idealize.ShloMosaic.Pipeline (Dat)

variable (m : (ℓ : Loc nD τ sig) → Buf (Elt Ideal) ℓ) (c : Dev nD) (R : Cert.Spec.RealIn)

/-- The second result after the host tail: std at every entry. -/
theorem tail_v25 (dats : (p : Fin 1) → (c : Dev nD) → Dat τ (Elt Ideal) Unit ℕ (UR sig nD τ) ℕ (cfgs p) c)
    (hR : HostArr.ArgsR m c R) (i : S2048x6.Idx) :
    (Pipeline.afterTail₀ cfgs dats 0 (V0 m) [hostOps1] c main_v25 : S2048x6.Idx → EReal) i = ((R.std : ℝ) : EReal) := by
  -- As a term of the arguments: the operation broadcasts the array found at std's reference, which is no array of
  -- the region and is written by no host operation, so it is std's array as launched.
  have e : (Pipeline.afterTail₀ cfgs dats 0 (V0 m) [hostOps1] c main_v25 : S2048x6.Idx → EReal)
      = broadcastInDim S2048x6 ![1] bcast_S1_S2048x6_1 (m ((c : Thread nD τ).loc main_arg1) : S1.Idx → EReal) := by
    unfold Pipeline.afterTail₀
    show StableHlo.after hostOps1 _ (Proc.devRef .tc main_v25) = _
    after_results
    rw [Pipeline.withArrays_of_ne _ c (V0 m c) _ main_arg1 (by exact (by decide : ∀ w, Pipeline.arrRef spec0 w ≠ main_arg1))]
    exact congrArg (broadcastInDim S2048x6 ![1] bcast_S1_S2048x6_1) (V_main_arg1 m c)
  rw [e]
  -- Read at i: the operand's one axis has extent 1, so its coordinate is 0 whatever i is.
  refine (broadcastInDim_apply ![1] bcast_S1_S2048x6_1 _ i (ix1 (⟨0, Nat.one_pos⟩ : Fin 1)) (fun ax => ?_)).trans (hR.std _)
  match ax with
  | ⟨0, _⟩ => exact (if_pos rfl).symm

end Cert.KernelIdeal.Tail

end
-- ==== Proof.OnlineSoftmax.lean ====
/-
  The blockwise ("online") softmax over the reals.

  A row of scores s 0, s 1, ... is cut into blocks of 1024.  Going through the blocks one keeps a running maximum
  and a running weighted sum, rescaling the sum whenever the maximum grows:
      M_0 = max of block 0,                       A_0 = sum over block 0 of exp (s n - M_0) * v n,
      M_(c+1) = max (M_c) (max of block c+1),     A_(c+1) = exp (M_c - M_(c+1)) * A_c + sum over block c+1 of exp (s n - M_(c+1)) * v n.
  After block c the two are the maximum of the first (c+1)*1024 scores and the sum over them of exp (s n - M_c) * v n,
  because exp (M_c - M_(c+1)) * exp (s n - M_c) = exp (s n - M_(c+1)).
  Hence after all 128 blocks the quotient A(v) / A(1) is the softmax-weighted mean of v over the 131072 scores, and
  that mean does not change when one constant is subtracted from every score.
-/
import Mathlib.Analysis.SpecialFunctions.Exp
import Mathlib.Algebra.BigOperators.Fin
import Mathlib.Algebra.BigOperators.Field
import Mathlib.Order.Fin.Basic
import proofs.«403143_j42399917146658_3_alg».proof.Proof.OnlineDefs

noncomputable section

open scoped BigOperators

namespace Cert.OnlineSoftmax

/-- The defining equations of the two recursions, as rewriting rules. -/
private lemma runMax_zero (s : ℕ → ℝ) : runMax s 0 = blockMax s 0 := by rw [runMax]

private lemma runMax_succ (s : ℕ → ℝ) (c : ℕ) :
    runMax s (c + 1) = max (runMax s c) (blockMax s (c + 1)) := by rw [runMax]

private lemma runAcc_zero (s v : ℕ → ℝ) : runAcc s v 0 = blockSum s v (runMax s 0) 0 := by
  rw [runAcc]

private lemma runAcc_succ (s v : ℕ → ℝ) (c : ℕ) :
    runAcc s v (c + 1)
      = Real.exp (runMax s c - runMax s (c + 1)) * runAcc s v c
        + blockSum s v (runMax s (c + 1)) (c + 1) := by
  rw [runAcc]

/-- A block's weighted sum, written over the first 1024 naturals. -/
private lemma blockSum_eq_range (s v : ℕ → ℝ) (M : ℝ) (c : ℕ) :
    blockSum s v M c
      = ∑ l ∈ Finset.range 1024, Real.exp (s (c * 1024 + l) - M) * v (c * 1024 + l) := by
  unfold blockSum
  exact Fin.sum_univ_eq_sum_range
    (fun l => Real.exp (s (c * 1024 + l) - M) * v (c * 1024 + l)) 1024

/-- Closed form of the running sum: after block c it is the sum over the first (c+1)*1024 scores of
    exp (s n - M_c) * v n.  The rescaling factor exp (M_c - M_(c+1)) turns every old term exp (s n - M_c)
    into exp (s n - M_(c+1)). -/
private lemma runAcc_closed (s v : ℕ → ℝ) (c : ℕ) :
    runAcc s v c = ∑ n ∈ Finset.range ((c + 1) * 1024), Real.exp (s n - runMax s c) * v n := by
  induction c with
  | zero =>
    rw [runAcc_zero, blockSum_eq_range]
    simp only [zero_mul, zero_add, one_mul]
  | succ c ih =>
    rw [runAcc_succ, ih, blockSum_eq_range, Finset.mul_sum]
    have h : (c + 1 + 1) * 1024 = (c + 1) * 1024 + 1024 := by ring
    rw [h, Finset.sum_range_add]
    congr 1
    apply Finset.sum_congr rfl
    intro n _
    have hexp : runMax s c - runMax s (c + 1) + (s n - runMax s c) = s n - runMax s (c + 1) := by
      ring
    rw [← mul_assoc, ← Real.exp_add, hexp]

/-- Every score of block c is at most the block's maximum. -/
private lemma le_blockMax (s : ℕ → ℝ) (c l : ℕ) (hl : l < 1024) :
    s (c * 1024 + l) ≤ blockMax s c :=
  Finset.le_sup' (fun l : Fin 1024 => s (c * 1024 + l.val)) (Finset.mem_univ (⟨l, hl⟩ : Fin 1024))

/-- The block's maximum is one of the block's scores. -/
private lemma blockMax_attained (s : ℕ → ℝ) (c : ℕ) :
    ∃ l, l < 1024 ∧ blockMax s c = s (c * 1024 + l) := by
  obtain ⟨l, _, hl⟩ :=
    Finset.exists_mem_eq_sup' Finset.univ_nonempty (fun l : Fin 1024 => s (c * 1024 + l.val))
  exact ⟨l.val, l.isLt, hl⟩

/-- The running maximum after block c bounds the first (c+1)*1024 scores. -/
private lemma le_runMax (s : ℕ → ℝ) (c n : ℕ) (hn : n < (c + 1) * 1024) : s n ≤ runMax s c := by
  induction c with
  | zero =>
    have h := le_blockMax s 0 n (by omega)
    rw [runMax_zero]
    simpa only [zero_mul, zero_add] using h
  | succ c ih =>
    rw [runMax_succ]
    by_cases h : n < (c + 1) * 1024
    · exact le_max_of_le_left (ih h)
    · obtain ⟨l, rfl⟩ : ∃ l, n = (c + 1) * 1024 + l := ⟨n - (c + 1) * 1024, by omega⟩
      exact le_max_of_le_right (le_blockMax s (c + 1) l (by omega))

/-- The running maximum after block c is one of the first (c+1)*1024 scores. -/
private lemma runMax_attained (s : ℕ → ℝ) (c : ℕ) :
    ∃ n, n < (c + 1) * 1024 ∧ runMax s c = s n := by
  induction c with
  | zero =>
    obtain ⟨l, hl, h⟩ := blockMax_attained s 0
    refine ⟨l, by omega, ?_⟩
    rw [runMax_zero]
    simpa only [zero_mul, zero_add] using h
  | succ c ih =>
    obtain ⟨n, hn, h⟩ := ih
    obtain ⟨l, hl, h'⟩ := blockMax_attained s (c + 1)
    have hn2 : n < (c + 1 + 1) * 1024 :=
      lt_of_lt_of_le hn (Nat.mul_le_mul_right 1024 (Nat.le_succ (c + 1)))
    have hl2 : (c + 1) * 1024 + l < (c + 1 + 1) * 1024 := by
      rw [Nat.add_mul (c + 1) 1 1024, Nat.one_mul]
      exact Nat.add_lt_add_left hl _
    rw [runMax_succ]
    rcases max_cases (runMax s c) (blockMax s (c + 1)) with ⟨hm, _⟩ | ⟨hm, _⟩
    · refine ⟨n, hn2, ?_⟩
      rw [hm, h]
    · refine ⟨(c + 1) * 1024 + l, hl2, ?_⟩
      rw [hm, h']

/-- Subtracting one constant from every score subtracts it from the maximum: the row maximum of the
    shifted scores is the running maximum after the last block, shifted. -/
private lemma rowMax_shift (s w : ℕ → ℝ) (δ : ℝ) (hw : ∀ n, w n = s n - δ) :
    rowMax w = runMax s 127 - δ := by
  unfold rowMax
  apply le_antisymm
  · apply Finset.sup'_le
    intro n _
    have h := le_runMax s 127 n.val (by have := n.isLt; omega)
    show w n.val ≤ runMax s 127 - δ
    rw [hw]
    exact sub_le_sub_right h δ
  · obtain ⟨n, hn, h⟩ := runMax_attained s 127
    have hn' : n < 131072 := by omega
    have hle := Finset.le_sup' (fun n : Fin 131072 => w n.val)
      (Finset.mem_univ (⟨n, hn'⟩ : Fin 131072))
    have hwn : w n = runMax s 127 - δ := by rw [hw, h]
    rw [← hwn]
    exact hle

/-- The normaliser is positive: the block holding the maximum contributes exp 0. -/
theorem runAcc_one_pos (s : ℕ → ℝ) (c : ℕ) : 0 < runAcc s (fun _ => 1) c := by
  rw [runAcc_closed]
  apply Finset.sum_pos
  · intro n _
    exact mul_pos (Real.exp_pos _) one_pos
  · exact ⟨0, Finset.mem_range.mpr (by omega)⟩

/-- The softmax denominator over the whole row is positive. -/
theorem rowDen_pos (w : ℕ → ℝ) : 0 < ∑ n : Fin 131072, Real.exp (w n.val - rowMax w) :=
  Finset.sum_pos (fun _ _ => Real.exp_pos _) Finset.univ_nonempty

/-- After the 128 blocks the quotient of the running sums is the softmax-weighted mean, for scores w that differ
    from s by one constant. -/
theorem online_eq_softmax (s w v : ℕ → ℝ) (δ : ℝ) (hw : ∀ n, w n = s n - δ) :
    runAcc s v 127 / runAcc s (fun _ => 1) 127
      = ∑ n : Fin 131072, (Real.exp (w n.val - rowMax w) / ∑ n' : Fin 131072, Real.exp (w n'.val - rowMax w)) * v n.val := by
  have hM : rowMax w = runMax s 127 - δ := rowMax_shift s w δ hw
  -- the shift cancels in every exponent
  have he : ∀ n : ℕ, Real.exp (w n - rowMax w) = Real.exp (s n - runMax s 127) := by
    intro n
    have hsub : w n - rowMax w = s n - runMax s 127 := by
      rw [hw, hM]
      ring
    rw [hsub]
  have h128 : (127 + 1) * 1024 = 131072 := by norm_num
  have hnum : runAcc s v 127 = ∑ n : Fin 131072, Real.exp (s n.val - runMax s 127) * v n.val := by
    rw [runAcc_closed, h128]
    exact Finset.sum_range (fun n => Real.exp (s n - runMax s 127) * v n)
  have hden : runAcc s (fun _ => 1) 127 = ∑ n : Fin 131072, Real.exp (s n.val - runMax s 127) := by
    rw [runAcc_closed, h128,
      Finset.sum_range (fun n => Real.exp (s n - runMax s 127) * (1 : ℝ))]
    simp only [mul_one]
  rw [hnum, hden]
  simp only [he]
  rw [Finset.sum_div]
  apply Finset.sum_congr rfl
  intro n _
  rw [div_mul_eq_mul_div]

end Cert.OnlineSoftmax

end
-- ==== Proof.KernelValue.lean ====
/-
  The kernel program's two results as functions of real inputs, and its run.

  The last step of batch tile i leaves in the output block, at (q, j), tanh of the quotient of the running sums of global
  row 1024 * i + q after all 128 memory tiles (value row j over the normalising row); that block is written back to rows
  1024 * i .. 1024 * i + 1023 of the result, and the two write-backs cover it.  The normaliser is positive, so the quotient
  is a quotient of reals.  The second result is the host's broadcast of std after the region.
-/
import proofs.«403143_j42399917146658_3_alg».proof.Proof.InvariantReal
import proofs.«403143_j42399917146658_3_alg».proof.Proof.Cover
import proofs.«403143_j42399917146658_3_alg».proof.Proof.Tail
import proofs.«403143_j42399917146658_3_alg».proof.Proof.OnlineSoftmax

set_option maxRecDepth 16384

noncomputable section

open scoped BigOperators

namespace Cert.KernelIdeal.KValue

open Idealize.ShloMosaic Idealize.ShloMosaic.TcCoe Idealize.SL.Sem Idealize.ShloMosaic.ValueIdx Cert.KernelIdeal Cert.KernelIdeal.Gen
open Cert.KernelIdeal.Blocks Cert.OnlineSoftmax
open Idealize.ShloMosaic.Pipeline (Dat)

variable (m : (ℓ : Loc nD τ sig) → Buf (Elt Ideal) ℓ) (ρ : Dev nD → PrngReg)

/-- The first result as a function of the real inputs. -/
def G (R : Cert.Spec.RealIn) : S2048x6.Idx → EReal := fun i => ((Cert.Spec.out R (i 0).val (i 1).val : ℝ) : EReal)

/-- The seventh value row is the constant one. -/
theorem v7_six (R : Cert.Spec.RealIn) : Cert.Spec.v7 R 6 = fun _ => 1 := by
  funext n; unfold Cert.Spec.v7; exact if_neg (by omega)

/-- What the last point of a batch tile writes back is its block of the result function. -/
theorem flushed_eq (c : Dev nD) (R : Cert.Spec.RealIn) (hR : HostArr.ArgsR m c R) (t : Fin cfg0.N)
    (hf : (cfg0.win 5).flush t = true) :
    (dats m 0 c).flushed 5 t = ((cfg0.win 5).blk t).view.read (Elt Ideal) (G R) := by
  have h127 : t.val % 128 = 127 := (flush0_5 t).mp hf
  have hN : t.val < 256 := lt_of_lt_of_eq t.isLt N_0
  show (cfg0.win 5).cut (grid0.coords t) ((dats m 0 c).after 5 t) = _
  rw [after0_5, Inv.out_last m c t h127]
  funext y
  obtain ⟨q, j, rfl⟩ : ∃ (q : Fin 1024) (j : Fin 6), y = ix2 q j := ⟨y 0, y 1, eq_ix2 y⟩
  have hlt : t.val / 128 * 1024 + q.val < 2048 := by have := q.isLt; omega
  show k0_pay3 (F := Ideal) (Inv.accAt m c t.val t.isLt) (ix2 q j) = G R (((cfg0.win 5).blk t).view.emb (ix2 q j))
  rw [Cover.emb5 t q j hlt]
  obtain ⟨-, ha⟩ := Inv.inv m c R hR t.val t.isLt
  have hA := ha q ⟨j.val, by omega⟩
  have h6 := ha q (6 : Fin 7)
  rw [h127] at hA h6
  refine (Pay.pay3_real _ q j _ _ hA h6 ?_).trans ?_
  · show runAcc _ (Cert.Spec.v7 R 6) 127 ≠ 0
    rw [v7_six]; exact (runAcc_one_pos _ _).ne'
  · rfl

/-- The first result array after the region. -/
theorem final5 (c : Dev nD) (R : Cert.Spec.RealIn) (hR : HostArr.ArgsR m c R) :
    (dats m 0 c).arrAt 5 cfg0.N = G R :=
  (dats m 0 c).arrAt_eq_of_cover 5 (G R) (fun t hf => flushed_eq m c R hR t hf) Cover.cover5

/-- The kernel program's run: both results as functions of the real inputs, the arguments unchanged. -/
theorem run (Rc : Dev nD → Cert.Spec.RealIn) (hR : ∀ c, HostArr.ArgsR m c (Rc c)) :
    θ_run defs (onTc (τ := τ) (main (F := Ideal))) ⟨m, fun _ => 0, ρ⟩ (fun r => ∀ c : Dev nD,
      r.2.mem ((c.tc : Thread nD τ).loc main_v24) = G (Rc c)
      ∧ r.2.mem ((c.tc : Thread nD τ).loc main_v25) = (fun _ => (((Rc c).std : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h c).1 5).trans (final5 m c (Rc c) (hR c)),
      ((h c).2 main_v25 (Pipeline.mem_restRefs_of main_v25 (by decide) (by decide))).trans
        (funext fun i => Tail.tail_v25 m c (Rc c) (dats m) (hR c) i),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.KValue

end
-- ==== Proof.RefScore.lean ====
/-
  The reference's temperature-scaled scores at an entry, over real inputs:
      ws (r, n) = ((2 * sum_k h r k * keys n k - sum_k h r k ^ 2) - sum_k keys n k ^ 2) / exp log_temp,
  with h = obs * W^T + b; the two host sums start from the constant 0, which adds nothing.
-/
import proofs.«403143_j42399917146658_3_alg».proof.Proof.Gen.ReferenceIdeal.Read
import proofs.«403143_j42399917146658_3_alg».proof.Proof.Spec
import Idealize.ShloMosaic.PureOps.Ideal.Laws
import Idealize.ShloMosaic.Lib.ValueIdx

noncomputable section

open scoped BigOperators

namespace Cert.ReferenceIdeal.RefValue

open Idealize.ShloMosaic Idealize.ShloMosaic.TcCoe Idealize.ShloMosaic.ValueIdx Cert.ReferenceIdeal Cert.ReferenceIdeal.Read

/-- A finite sum of coerced reals is the coercion of the real sum. -/
private theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The binary32 pattern 0x40000000 denotes the real number 2. -/
private theorem ofBits_two_f32 : Ideal.ofBits .f32 0x40000000#32 = ((2 : ℝ) : EReal) := by
  simp [Ideal.ofBits, Ideal.ieee, -EReal.coe_mul]
  norm_num

/-! ### Index equations: the generated index functions at an entry given by its coordinates -/

private theorem lidx1_ix (r : Fin 2048) (k : Fin 128) (j : Fin 64) : lidx_main_v1 (ix2 r k) j = ix2 r j :=
  funext fun a => Fin.ext (by match a with | ⟨0, _⟩ => rfl | ⟨1, _⟩ => rfl)
private theorem ridx1_ix (r : Fin 2048) (k : Fin 128) (j : Fin 64) : idx_main_v0 (ridx_main_v1 (ix2 r k) j) = ix2 k j :=
  funext fun a => Fin.ext (by match a with | ⟨0, _⟩ => rfl | ⟨1, _⟩ => rfl)
private theorem bidx_ix (r : Fin 2048) (k : Fin 128) : idx_main_v2 (idx_main_v3 (ix2 r k)) = ix1 k :=
  funext fun a => Fin.ext (by match a with | ⟨0, _⟩ => rfl)
private theorem idx6_ix (r : Fin 2048) (k : Fin 128) : idx_main_v6 (ix1 r) k = ix2 r k :=
  funext fun a => Fin.ext (by match a with | ⟨0, _⟩ => rfl | ⟨1, _⟩ => rfl)
private theorem idx9_ix (n : Fin 131072) (k : Fin 128) : idx_main_v9 (ix1 n) k = ix2 n k :=
  funext fun a => Fin.ext (by match a with | ⟨0, _⟩ => rfl | ⟨1, _⟩ => rfl)
private theorem lidx11_ix (r : Fin 2048) (n : Fin 131072) (k : Fin 128) : lidx_main_v11 (ix2 r n) k = ix2 r k :=
  funext fun a => Fin.ext (by match a with | ⟨0, _⟩ => rfl | ⟨1, _⟩ => rfl)
private theorem ridx11_ix (r : Fin 2048) (n : Fin 131072) (k : Fin 128) : idx_main_v10 (ridx_main_v11 (ix2 r n) k) = ix2 n k :=
  funext fun a => Fin.ext (by match a with | ⟨0, _⟩ => rfl | ⟨1, _⟩ => rfl)
private theorem idx14_ix (r : Fin 2048) (n : Fin 131072) : idx_main_v7 (idx_main_v14 (ix2 r n)) = ix1 r :=
  funext fun a => Fin.ext (by match a with | ⟨0, _⟩ => rfl)
private theorem idx17_ix (r : Fin 2048) (n : Fin 131072) : idx_main_v16 (idx_main_v17 (ix2 r n)) = ix1 n :=
  funext fun a => Fin.ext (by match a with | ⟨0, _⟩ => rfl)

variable (R : Cert.Spec.RealIn)
  (a0 : FVec Ideal S2048x64 .f32) (a1 : FVec Ideal S1 .f32) (a2 : FVec Ideal S128x64 .f32) (a3 : FVec Ideal S128 .f32)
  (a4 : FVec Ideal S131072x128 .f32) (a5 : FVec Ideal S131072x6 .f32) (a6 : FVec Ideal S_ .f32)

/-- The predictor layer at (r, k). -/
theorem h_apply (hR : Cert.Spec.ArgsReal R a0 a1 a2 a3 a4 a5 a6) (r : Fin 2048) (k : Fin 128) :
    val_main_v4 (F := Ideal) a0 a2 a3 (ix2 r k) = ((Cert.Spec.h R r.val k.val : ℝ) : EReal) := by
  -- the matrix product obs * W^T at (r, k)
  have e1 : val_main_v1 (F := Ideal) a0 a2 (ix2 r k) = ((∑ j : Fin 64, R.obs r.val j.val * R.W k.val j.val : ℝ) : EReal) := by
    rw [val_main_v1_apply, ← coe_sum]
    refine Finset.sum_congr rfl fun j _ => ?_
    rw [val_main_v0_apply, lidx1_ix, ridx1_ix, hR.obs (ix2 r j), hR.W (ix2 k j), ← EReal.coe_mul]
  -- the broadcast bias at (r, k)
  have e3 : val_main_v3 (F := Ideal) a3 (ix2 r k) = ((R.b k.val : ℝ) : EReal) := by
    rw [val_main_v3_apply, val_main_v2_apply, bidx_ix, hR.b (ix1 k)]
  rw [val_main_v4_apply, Ideal.addf_def, e1, e3, ← EReal.coe_add]
  rfl

/-- The squared norm of row r of the predictor layer: the host sum from 0. -/
private theorem hsq_apply (hR : Cert.Spec.ArgsReal R a0 a1 a2 a3 a4 a5 a6) (r : Fin 2048) :
    val_main_v6 (F := Ideal) a0 a2 a3 (ix1 r)
      = ((∑ k : Fin 128, Cert.Spec.h R r.val k.val * Cert.Spec.h R r.val k.val : ℝ) : EReal) := by
  rw [val_main_v6_apply, val_main_cst_apply, Ideal.ofBits_def, Ideal.ofBits_zero_f32, zero_add, ← coe_sum]
  refine Finset.sum_congr rfl fun k _ => ?_
  rw [val_main_v5_apply, Ideal.mulf_def, idx6_ix, h_apply R a0 a1 a2 a3 a4 a5 a6 hR r k, ← EReal.coe_mul]

/-- The squared norm of key n: the host sum from 0. -/
private theorem ksq_apply (hR : Cert.Spec.ArgsReal R a0 a1 a2 a3 a4 a5 a6) (n : Fin 131072) :
    val_main_v9 (F := Ideal) a4 (ix1 n) = ((Cert.Spec.ksq R n.val : ℝ) : EReal) := by
  rw [val_main_v9_apply, val_main_cst_0_apply, Ideal.ofBits_def, Ideal.ofBits_zero_f32, zero_add, Cert.Spec.ksq, ← coe_sum]
  refine Finset.sum_congr rfl fun k _ => ?_
  rw [val_main_v8_apply, Ideal.mulf_def, idx9_ix, hR.keys (ix2 n k), ← EReal.coe_mul]

/-- The inner product of row r of the predictor layer with key n. -/
private theorem dot_apply (hR : Cert.Spec.ArgsReal R a0 a1 a2 a3 a4 a5 a6) (r : Fin 2048) (n : Fin 131072) :
    val_main_v11 (F := Ideal) a0 a2 a3 a4 (ix2 r n)
      = ((∑ k : Fin 128, Cert.Spec.h R r.val k.val * R.keys n.val k.val : ℝ) : EReal) := by
  rw [val_main_v11_apply, ← coe_sum]
  refine Finset.sum_congr rfl fun k _ => ?_
  rw [val_main_v10_apply, lidx11_ix, ridx11_ix, h_apply R a0 a1 a2 a3 a4 a5 a6 hR r k, hR.keys (ix2 n k), ← EReal.coe_mul]

/-- The scaled scores at (r, n). -/
theorem ws_apply (hR : Cert.Spec.ArgsReal R a0 a1 a2 a3 a4 a5 a6) (r : Fin 2048) (n : Fin 131072) :
    val_main_v21 (F := Ideal) a0 a2 a3 a4 a6 (ix2 r n) = ((Cert.Spec.wref R r.val n.val : ℝ) : EReal) := by
  -- twice the inner product
  have e13 : val_main_v13 (F := Ideal) a0 a2 a3 a4 (ix2 r n)
      = ((2 * ∑ k : Fin 128, Cert.Spec.h R r.val k.val * R.keys n.val k.val : ℝ) : EReal) := by
    rw [val_main_v13_apply, Ideal.mulf_def, val_main_v12_apply, val_main_cst_1_apply, Ideal.ofBits_def, ofBits_two_f32,
      dot_apply R a0 a1 a2 a3 a4 a5 a6 hR r n, ← EReal.coe_mul]
  -- the row's squared norm, broadcast along n
  have e14 : val_main_v14 (F := Ideal) a0 a2 a3 (ix2 r n)
      = ((∑ k : Fin 128, Cert.Spec.h R r.val k.val * Cert.Spec.h R r.val k.val : ℝ) : EReal) := by
    rw [val_main_v14_apply, val_main_v7_apply, idx14_ix, hsq_apply R a0 a1 a2 a3 a4 a5 a6 hR r]
  -- the key's squared norm, broadcast along r
  have e17 : val_main_v17 (F := Ideal) a4 (ix2 r n) = ((Cert.Spec.ksq R n.val : ℝ) : EReal) := by
    rw [val_main_v17_apply, val_main_v16_apply, idx17_ix, ksq_apply R a0 a1 a2 a3 a4 a5 a6 hR n]
  -- the temperature exp log_temp, a nonzero real
  have e20 : val_main_v20 (F := Ideal) a6 (ix2 r n) = ((Real.exp R.lt : ℝ) : EReal) := by
    rw [val_main_v20_apply, val_main_v19_apply, Ideal.hostUnary_exp_def, hR.lt, Ideal.exp_coe]
  rw [val_main_v21_apply, Ideal.hostDivf_def, val_main_v18_apply, Ideal.subf_def, val_main_v15_apply, Ideal.subf_def,
    e13, e14, e17, e20, Ideal.div_coe (Real.exp_ne_zero _), ← EReal.coe_sub, ← EReal.coe_sub, ← EReal.coe_mul,
    Cert.Spec.wref, mul_one_div]

end Cert.ReferenceIdeal.RefValue

end
-- ==== Proof.RefValue.lean ====
/-
  The reference's two results at an entry, over real inputs: the first is tanh of the softmax-weighted mean of a value
  column (the softmax taken with the row maximum subtracted, the maximum started from minus infinity twice over), the
  second is 1 * std.
-/
import proofs.«403143_j42399917146658_3_alg».proof.Proof.RefScore

noncomputable section

open scoped BigOperators

namespace Cert.ReferenceIdeal.RefValue

open Idealize.ShloMosaic Idealize.ShloMosaic.TcCoe Idealize.ShloMosaic.ValueIdx Cert.ReferenceIdeal Cert.ReferenceIdeal.Read Cert.OnlineSoftmax

/-- The f32 pattern 0x3F800000 is the number one. -/
private theorem ofBits_one : Ideal.ofBits .f32 0x3F800000#32 = 1 := by
  simp [Ideal.ofBits, Ideal.ieee]
  rw [← EReal.coe_mul, ← EReal.coe_one]
  exact congrArg _ (by norm_num)

/-- The f32 pattern 0xFF800000 is minus infinity. -/
private theorem ofBits_ninf : Ideal.ofBits .f32 0xFF800000#32 = ⊥ := by simp [Ideal.ofBits, Ideal.ieee]

/-- A finite sum of coerced reals is the coerced sum. -/
private theorem coe_sum {ι : Type} (s : Finset ι) (f : ι → ℝ) :
    ∑ k ∈ s, ((f k : ℝ) : EReal) = ((∑ k ∈ s, f k : ℝ) : EReal) := by
  induction s using Finset.cons_induction with
  | empty => simp
  | cons a s ha ih => rw [Finset.sum_cons, Finset.sum_cons, ih, EReal.coe_add]

/-- The fold of max from minus infinity over coerced reals is the coerced maximum. -/
private theorem fold_max_coe {ι : Type} (s : Finset ι) (hs : s.Nonempty) (g : ι → ℝ) :
    s.fold max (⊥ : EReal) (fun n => ((g n : ℝ) : EReal)) = ((s.sup' hs g : ℝ) : EReal) := by
  have h1 : s.fold max (⊥ : EReal) (fun n => ((g n : ℝ) : EReal)) = s.sup (fun n => ((g n : ℝ) : EReal)) := rfl
  rw [h1, ← Finset.sup'_eq_sup hs]
  exact (Finset.comp_sup'_eq_sup'_comp hs (fun x : ℝ => (x : EReal))
    (fun x y => EReal.coe_strictMono.monotone.map_max)).symm

variable (R : Cert.Spec.RealIn)
  (a0 : FVec Ideal S2048x64 .f32) (a1 : FVec Ideal S1 .f32) (a2 : FVec Ideal S128x64 .f32) (a3 : FVec Ideal S128 .f32)
  (a4 : FVec Ideal S131072x128 .f32) (a5 : FVec Ideal S131072x6 .f32) (a6 : FVec Ideal S_ .f32)

/-- The row maximum from minus infinity, at row r. -/
private theorem v22_apply (hR : Cert.Spec.ArgsReal R a0 a1 a2 a3 a4 a5 a6) (r : Fin 2048) :
    val_main_v22 (F := Ideal) a0 a2 a3 a4 a6 (ix1 r) = ((rowMax (Cert.Spec.wref R r.val) : ℝ) : EReal) := by
  have hred : S2048x131072.Reduces [1] S2048 := by decide
  unfold val_main_v22
  rw [Host.reduce_eq_fold_single FloatOps.maximumf _ _ Cert.ReferenceIdeal.Gen.reducesTo_S2048x131072_S2048_d1 hred
    Cert.ReferenceIdeal.Gen.h_S_ (ix1 r)]
  have e : ((val_main_v21 (F := Ideal) a0 a2 a3 a4 a6) ∘ (hred.lift (ix1 r)))
      = fun n : Fin 131072 => ((Cert.Spec.wref R r.val n.val : ℝ) : EReal) := by
    funext n
    show val_main_v21 (F := Ideal) a0 a2 a3 a4 a6 (hred.lift (ix1 r) n) = _
    rw [show hred.lift (ix1 r) n = ix2 r n from
      funext fun a => Fin.ext (by match a with | ⟨0, _⟩ => rfl | ⟨1, _⟩ => rfl)]
    exact ws_apply R a0 a1 a2 a3 a4 a5 a6 hR r n
  rw [e, val_main_cst_2_apply, Ideal.ofBits_def, ofBits_ninf]
  unfold rowMax
  exact fold_max_coe Finset.univ Finset.univ_nonempty (fun n : Fin 131072 => Cert.Spec.wref R r.val n.val)

/-- The second maximum with minus infinity changes nothing. -/
private theorem v24_apply (hR : Cert.Spec.ArgsReal R a0 a1 a2 a3 a4 a5 a6) (r : Fin 2048) :
    val_main_v24 (F := Ideal) a0 a2 a3 a4 a6 (ix1 r) = ((rowMax (Cert.Spec.wref R r.val) : ℝ) : EReal) := by
  rw [val_main_v24_apply, val_main_v23_apply, val_main_cst_3_apply, v22_apply R a0 a1 a2 a3 a4 a5 a6 hR r,
    Ideal.maximumf_def, Ideal.ofBits_def, ofBits_ninf, max_bot_left]

/-- The row maximum (after the second maximum with minus infinity), as a column entry. -/
theorem max_apply (hR : Cert.Spec.ArgsReal R a0 a1 a2 a3 a4 a5 a6) (r : Fin 2048) (u : Fin 1) :
    val_main_v25 (F := Ideal) a0 a2 a3 a4 a6 (ix2 r u) = ((rowMax (Cert.Spec.wref R r.val) : ℝ) : EReal) := by
  rw [val_main_v25_apply,
    show idx_main_v25 (ix2 r u) = ix1 r from funext fun a => Fin.ext (by match a with | ⟨0, _⟩ => rfl)]
  exact v24_apply R a0 a1 a2 a3 a4 a5 a6 hR r

/-- The shifted score at (r, n): the score minus the row maximum. -/
private theorem v27_apply (hR : Cert.Spec.ArgsReal R a0 a1 a2 a3 a4 a5 a6) (r : Fin 2048) (n : Fin 131072) :
    val_main_v27 (F := Ideal) a0 a2 a3 a4 a6 (ix2 r n)
      = ((Cert.Spec.wref R r.val n.val - rowMax (Cert.Spec.wref R r.val) : ℝ) : EReal) := by
  rw [val_main_v27_apply, val_main_v26_apply,
    show idx_main_v26 (ix2 r n) = ix2 r (0 : Fin 1) from
      funext fun a => Fin.ext (by match a with | ⟨0, _⟩ => rfl | ⟨1, _⟩ => rfl),
    max_apply R a0 a1 a2 a3 a4 a5 a6 hR r 0, ws_apply R a0 a1 a2 a3 a4 a5 a6 hR r n, Ideal.subf_def, EReal.coe_sub]

/-- The exponential of the shifted score at (r, n). -/
private theorem v28_apply (hR : Cert.Spec.ArgsReal R a0 a1 a2 a3 a4 a5 a6) (r : Fin 2048) (n : Fin 131072) :
    val_main_v28 (F := Ideal) a0 a2 a3 a4 a6 (ix2 r n)
      = ((Real.exp (Cert.Spec.wref R r.val n.val - rowMax (Cert.Spec.wref R r.val)) : ℝ) : EReal) := by
  rw [val_main_v28_apply, v27_apply R a0 a1 a2 a3 a4 a5 a6 hR r n, Ideal.hostUnary_exp_def, Ideal.exp_coe]

/-- The row's sum of exponentials (started from the constant 0, which adds nothing). -/
private theorem v29_apply (hR : Cert.Spec.ArgsReal R a0 a1 a2 a3 a4 a5 a6) (r : Fin 2048) :
    val_main_v29 (F := Ideal) a0 a2 a3 a4 a6 (ix1 r)
      = ((∑ n : Fin 131072, Real.exp (Cert.Spec.wref R r.val n.val - rowMax (Cert.Spec.wref R r.val)) : ℝ) : EReal) := by
  rw [val_main_v29_apply, val_main_cst_4_apply, Ideal.ofBits_def, Ideal.ofBits_zero_f32, zero_add, ← coe_sum]
  refine Finset.sum_congr rfl fun k _ => ?_
  rw [show idx_main_v29 (ix1 r) k = ix2 r k from
    funext fun a => Fin.ext (by match a with | ⟨0, _⟩ => rfl | ⟨1, _⟩ => rfl)]
  exact v28_apply R a0 a1 a2 a3 a4 a5 a6 hR r k

/-- The row's sum of exponentials is positive. -/
private theorem den_pos (w : ℕ → ℝ) (M : ℝ) : 0 < ∑ n : Fin 131072, Real.exp (w n.val - M) :=
  Finset.sum_pos (fun _ _ => Real.exp_pos _) Finset.univ_nonempty

/-- The softmax weight at (r, n). -/
private theorem v32_apply (hR : Cert.Spec.ArgsReal R a0 a1 a2 a3 a4 a5 a6) (r : Fin 2048) (n : Fin 131072) :
    val_main_v32 (F := Ideal) a0 a2 a3 a4 a6 (ix2 r n)
      = ((Real.exp (Cert.Spec.wref R r.val n.val - rowMax (Cert.Spec.wref R r.val))
          / ∑ n' : Fin 131072, Real.exp (Cert.Spec.wref R r.val n'.val - rowMax (Cert.Spec.wref R r.val)) : ℝ) : EReal) := by
  rw [val_main_v32_apply, val_main_v31_apply,
    show idx_main_v31 (ix2 r n) = ix2 r (0 : Fin 1) from
      funext fun a => Fin.ext (by match a with | ⟨0, _⟩ => rfl | ⟨1, _⟩ => rfl),
    val_main_v30_apply,
    show idx_main_v30 (ix2 r (0 : Fin 1)) = ix1 r from funext fun a => Fin.ext (by match a with | ⟨0, _⟩ => rfl),
    v29_apply R a0 a1 a2 a3 a4 a5 a6 hR r, v28_apply R a0 a1 a2 a3 a4 a5 a6 hR r n, Ideal.hostDivf_def,
    Ideal.div_coe (den_pos _ _).ne', ← EReal.coe_mul, mul_one_div]

/-- The first result at (r, j). -/
theorem out0_apply (hR : Cert.Spec.ArgsReal R a0 a1 a2 a3 a4 a5 a6) (r : Fin 2048) (j : Fin 6) :
    val_main_v34 (F := Ideal) a0 a2 a3 a4 a5 a6 (ix2 r j) = ((Cert.Spec.refOut R r.val j.val : ℝ) : EReal) := by
  have hs : val_main_v33 (F := Ideal) a0 a2 a3 a4 a5 a6 (ix2 r j)
      = ((∑ n : Fin 131072,
          (Real.exp (Cert.Spec.wref R r.val n.val - rowMax (Cert.Spec.wref R r.val))
            / ∑ n' : Fin 131072, Real.exp (Cert.Spec.wref R r.val n'.val - rowMax (Cert.Spec.wref R r.val)))
          * R.vals n.val j.val : ℝ) : EReal) := by
    rw [val_main_v33_apply, ← coe_sum]
    refine Finset.sum_congr rfl fun k _ => ?_
    rw [show lidx_main_v33 (ix2 r j) k = ix2 r k from
        funext fun a => Fin.ext (by match a with | ⟨0, _⟩ => rfl | ⟨1, _⟩ => rfl),
      show ridx_main_v33 (ix2 r j) k = ix2 k j from
        funext fun a => Fin.ext (by match a with | ⟨0, _⟩ => rfl | ⟨1, _⟩ => rfl),
      v32_apply R a0 a1 a2 a3 a4 a5 a6 hR r k, hR.vals (ix2 k j), EReal.coe_mul]
  rw [val_main_v34_apply, hs, Ideal.hostUnary_tanh_def, Ideal.tanh_coe]
  rfl

/-- The second result is std everywhere. -/
theorem out1_apply (hR : Cert.Spec.ArgsReal R a0 a1 a2 a3 a4 a5 a6) (i : S2048x6.Idx) :
    val_main_v38 (F := Ideal) a1 i = ((R.std : ℝ) : EReal) := by
  rw [val_main_v38_apply, val_main_v35_apply, val_main_cst_5_apply, val_main_v37_apply]
  unfold val_main_v36 shapeCast
  rw [hR.std, Ideal.mulf_def, Ideal.ofBits_def, ofBits_one, one_mul]

end Cert.ReferenceIdeal.RefValue

end
-- ==== Proof.Finite.lean ====
/-
  From the precondition to real numbers: when the predicate "every input entry has absolute value below plus infinity"
  is all ones, every entry of the seven argument arrays is a real number, so the arrays are (coercions of) real arrays.
-/
import proofs.«403143_j42399917146658_3_alg».proof.Proof.Gen.Pre_finite_inputs
import proofs.«403143_j42399917146658_3_alg».proof.Proof.Spec
import Idealize.ShloMosaic.Lib.ReduceAll
import Idealize.ShloMosaic.Lib.ValueIdx
import Idealize.ShloMosaic.Lib.IdealHost
import Idealize.ShloMosaic.PureOps.Ideal.Laws

noncomputable section

namespace Cert.Finite

open Idealize.ShloMosaic Idealize.ShloMosaic.ValueIdx Cert.Pre_finite_inputs

/-! ## One entry -/

/-- The f32 pattern 0x7F800000 is plus infinity. -/
private theorem ofBits_inf : Ideal.ofBits .f32 0x7F800000#32 = (⊤ : EReal) := by
  simp [Ideal.ofBits, Ideal.ieee]

/-- An extended real whose absolute value max x (-x) compares below plus infinity is a real number. -/
private theorem entry_real (x : EReal)
    (h : FloatOps.cmpf (F := Ideal) (φ := .f32) .olt (FloatOps.hostAbsf x) (Ideal.ofBits .f32 0x7F800000#32) = 1#1) :
    x = ((x.toReal : ℝ) : EReal) := by
  rw [Ideal.hostAbsf_def, Ideal.cmpf_def, Ideal.absf_def, ofBits_inf] at h
  have hlt : max x (-x) < ⊤ := by
    by_contra hn
    simp [Ideal.cmp, hn] at h
  have h1 : x ≠ ⊤ := fun e => by rw [e] at hlt; simp at hlt
  have h2 : x ≠ ⊥ := fun e => by rw [e] at hlt; simp at hlt
  exact (EReal.coe_toReal h1 h2).symm

/-! ## All entries of one array -/

/-- The one index of the scalar shape. -/
private instance : Subsingleton S_.Idx := ⟨fun a b => funext fun d => d.elim0⟩

/-- If the conjunction over all entries of "max (x i) (-(x i)) is below plus infinity" is one (the bound being a scalar
    constant read at every index), then every entry of x is a real number. -/
private theorem all_real {T : Shape} {axes : List (Fin T.rank)} (hb : S_.BroadcastsInDim T (![] : Fin 0 → Fin T.rank))
    (hr : T.ReducesTo axes S_) (hu : 0 < S_.numel) (x : FVec Ideal T .f32) (init : IVec S_ 1)
    (e : Host.reduce IntOp.andi
          (cmpf .olt (Host.absf x) (broadcastInDim T ![] hb (constant (F := Ideal) S_ .f32 0x7F800000#32))) init hr hu ix0 = 1#1)
    (i : T.Idx) : x i = (((x i).toReal : ℝ) : EReal) := by
  have hi := Host.reduce_andi_all _ init hr hu ix0 e i
  rw [cmpf_apply, broadcastInDim_scalar_apply, constant_apply] at hi
  exact entry_real (x i) hi

/-- The same for the scalar argument, compared with the constant itself. -/
private theorem all_real0 (hr : S_.ReducesTo [] S_) (hu : 0 < S_.numel) (x : FVec Ideal S_ .f32) (init : IVec S_ 1)
    (e : Host.reduce IntOp.andi
          (cmpf .olt (Host.absf x) (constant (F := Ideal) S_ .f32 0x7F800000#32)) init hr hu ix0 = 1#1)
    (i : S_.Idx) : x i = (((x i).toReal : ℝ) : EReal) := by
  have hi := Host.reduce_andi_all _ init hr hu ix0 e i
  rw [cmpf_apply, constant_apply] at hi
  exact entry_real (x i) hi

/-! ## The real arrays -/

/-- The real array under a rank-2 array of extended reals (zero off the index range). -/
private def real2 {A B : ℕ} (x : (⟨2, ![A, B]⟩ : Shape).Idx → EReal) : ℕ → ℕ → ℝ :=
  fun a b => if h : a < A ∧ b < B then (x (ix2 ⟨a, h.1⟩ ⟨b, h.2⟩)).toReal else 0

/-- The real array under a rank-1 array of extended reals (zero off the index range). -/
private def real1 {A : ℕ} (x : (⟨1, ![A]⟩ : Shape).Idx → EReal) : ℕ → ℝ :=
  fun a => if h : a < A then (x (ix1 ⟨a, h⟩)).toReal else 0

private theorem isReal2_real2 {A B : ℕ} (x : (⟨2, ![A, B]⟩ : Shape).Idx → EReal)
    (hx : ∀ i, x i = (((x i).toReal : ℝ) : EReal)) : Cert.Spec.IsReal2 x (real2 x) := by
  intro i
  have hi : (i 0).val < A ∧ (i 1).val < B := ⟨idx2_lt0 i, idx2_lt1 i⟩
  have hix : ix2 (⟨(i 0).val, hi.1⟩ : Fin A) (⟨(i 1).val, hi.2⟩ : Fin B) = i := (eq_ix2 i).symm
  unfold real2
  rw [dif_pos hi, hix]
  exact hx i

private theorem isReal1_real1 {A : ℕ} (x : (⟨1, ![A]⟩ : Shape).Idx → EReal)
    (hx : ∀ i, x i = (((x i).toReal : ℝ) : EReal)) : Cert.Spec.IsReal1 x (real1 x) := by
  intro i
  have hi : (i 0).val < A := (i 0).isLt
  have hix : ix1 (⟨(i 0).val, hi⟩ : Fin A) = i := (eq_ix1 i).symm
  unfold real1
  rw [dif_pos hi, hix]
  exact hx i

/-! ## The seven arguments -/

/-- Argument arrays on which the finiteness predicate is all ones are real arrays. -/
theorem args_real [Cert.Pre_finite_inputs.Facts]
    (a0 : FVec Ideal S2048x64 .f32) (a1 : FVec Ideal S1 .f32) (a2 : FVec Ideal S128x64 .f32) (a3 : FVec Ideal S128 .f32)
    (a4 : FVec Ideal S131072x128 .f32) (a5 : FVec Ideal S131072x6 .f32) (a6 : FVec Ideal S_ .f32)
    (h : Cert.Pre_finite_inputs.fn (F := Ideal) a0 a1 a2 a3 a4 a5 a6 = (fun _ => 1#1)) :
    ∃ R : Cert.Spec.RealIn, Cert.Spec.ArgsReal R a0 a1 a2 a3 a4 a5 a6 := by
  have h0 := congrFun h ix0
  dsimp only [fn, fn_part1, Idealize.ShloMosaic.andi] at h0
  obtain ⟨h28, e6⟩ := IntOp.andi_eq_one.1 h0
  obtain ⟨h23, e5⟩ := IntOp.andi_eq_one.1 h28
  obtain ⟨h18, e4⟩ := IntOp.andi_eq_one.1 h23
  obtain ⟨h13, e3⟩ := IntOp.andi_eq_one.1 h18
  obtain ⟨h8, e2⟩ := IntOp.andi_eq_one.1 h13
  obtain ⟨e0, e1⟩ := IntOp.andi_eq_one.1 h8
  have r0 := all_real _ _ _ a0 _ e0
  have r1 := all_real _ _ _ a1 _ e1
  have r2 := all_real _ _ _ a2 _ e2
  have r3 := all_real _ _ _ a3 _ e3
  have r4 := all_real _ _ _ a4 _ e4
  have r5 := all_real _ _ _ a5 _ e5
  have r6 := all_real0 _ _ a6 _ e6
  refine ⟨⟨real2 a0, (a1 (ix1 (⟨0, Nat.one_pos⟩ : Fin 1))).toReal, real2 a2, real1 a3, real2 a4, real2 a5, (a6 ix0).toReal⟩, ?_⟩
  refine ⟨isReal2_real2 a0 r0, ?_, isReal2_real2 a2 r2, isReal1_real1 a3 r3, isReal2_real2 a4 r4, isReal2_real2 a5 r5, ?_⟩
  · intro i
    have hlt : (i 0).val < 1 := (i 0).isLt
    have hz : i 0 = (⟨0, Nat.one_pos⟩ : Fin 1) := Fin.ext (by show (i 0).val = 0; omega)
    have hi : i = ix1 (⟨0, Nat.one_pos⟩ : Fin 1) := (eq_ix1 i).trans (congrArg ix1 hz)
    rw [hi]; exact r1 _
  · intro i
    rw [eq_ix0 i]; exact r6 _

end Cert.Finite

end
-- ==== Proof.SpecEq.lean ====
/-
  The reference's result and the kernel's are one real function: the reference's scores are the kernel's minus a
  constant of the row, and the blockwise running quotient is the softmax-weighted mean, which ignores such a constant.
-/
import proofs.«403143_j42399917146658_3_alg».proof.Proof.Spec
import proofs.«403143_j42399917146658_3_alg».proof.Proof.OnlineSoftmax

noncomputable section

open scoped BigOperators

namespace Cert.Spec

open Cert.OnlineSoftmax

/-- The reference's score is the kernel's minus a constant of the row. -/
theorem wref_eq (R : RealIn) (r n : ℕ) :
    wref R r n = score R r n - (∑ k : Fin 128, h R r k.val * h R r k.val) / Real.exp R.lt := by
  -- the constant factor 2 / e comes out of the kernel's first sum
  have hsum : ∑ k : Fin 128, hs R r k.val * R.keys n k.val
      = (2 * (1 / Real.exp R.lt)) * ∑ k : Fin 128, h R r k.val * R.keys n k.val := by
    rw [Finset.mul_sum]
    apply Finset.sum_congr rfl
    intro k _
    unfold hs it
    ring
  unfold wref score
  rw [hsum]
  -- the residual sum of zeros vanishes
  simp only [zero_mul, Finset.sum_const_zero, add_zero]
  unfold it
  ring

/-- The two results are one function. -/
theorem refOut_eq_out (R : RealIn) (r j : ℕ) (hj : j < 6) : refOut R r j = out R r j := by
  -- for j < 6 the kernel's value row j is the reference's value column j; the seventh row is the constant one
  have hvj : v7 R j = fun n => R.vals n j := by
    funext n
    unfold v7
    rw [if_pos hj]
  have hv6 : v7 R 6 = fun _ => (1 : ℝ) := by
    funext n
    unfold v7
    rw [if_neg (lt_irrefl 6)]
  -- the running quotient is the softmax-weighted mean, and the row constant does not change it
  have key := online_eq_softmax (score R r) (wref R r) (fun n => R.vals n j)
    ((∑ k : Fin 128, h R r k.val * h R r k.val) / Real.exp R.lt) (wref_eq R r)
  unfold refOut out
  rw [hvj, hv6, key]

end Cert.Spec

end
-- ==== Proof.lean ====
/-
  The kernel streams 128 tiles of a 131072-slot memory past each tile of 1024 query rows, keeping per row a running
  maximum of the scores and running sums of exp (score - maximum) times each value column and times 1, rescaled whenever
  the maximum grows; at the end it divides the value sums by the normalising sum and takes tanh.  The reference computes
  the full score matrix, a softmax over each row, its product with the values, and tanh.

  Under the precondition every input entry is a real number, and then every intermediate quantity is one too, so both
  programs can be followed on the reals:
    * the kernel's scores drop the row constant sum_k h^2 / exp log_temp that the reference's carry, which no softmax sees;
    * the second half of the kernel's two-term split of the scaled predictor is x - x = 0 and contributes nothing;
    * dividing by exp log_temp is multiplying by its reciprocal;
    * the running maximum and sums after the last tile are the row maximum and the sums over the whole row (induction
      over the grid points, exp (a - b) * exp (b - c) = exp (a - c)), and the normaliser is positive;
    * sum_n (p_n / D) * v_n = (sum_n p_n * v_n) / D.
  The second result is std broadcast on both sides (the reference multiplies it by 1).
  The frames of the two kernel programs are the generated ones; the reference's is its generated run with the results
  dropped; the idealization rewrote nothing, so its preservation claim is trivial.
-/
import proofs.«403143_j42399917146658_3_alg».proof.Defs
import proofs.«403143_j42399917146658_3_alg».proof.Proof.Gen.Kernel
import proofs.«403143_j42399917146658_3_alg».proof.Proof.Gen.Kernel.Skeleton
import proofs.«403143_j42399917146658_3_alg».proof.Proof.Gen.Kernel.Launch
import proofs.«403143_j42399917146658_3_alg».proof.Proof.Gen.Kernel.Points
import proofs.«403143_j42399917146658_3_alg».proof.Proof.Gen.Kernel.Frame
import proofs.«403143_j42399917146658_3_alg».proof.Proof.Gen.KernelIdeal
import proofs.«403143_j42399917146658_3_alg».proof.Proof.Gen.KernelIdeal.Skeleton
import proofs.«403143_j42399917146658_3_alg».proof.Proof.Gen.KernelIdeal.Launch
import proofs.«403143_j42399917146658_3_alg».proof.Proof.Gen.KernelIdeal.Points
import proofs.«403143_j42399917146658_3_alg».proof.Proof.Gen.KernelIdeal.Frame
import proofs.«403143_j42399917146658_3_alg».proof.Proof.Gen.ReferenceIdeal
import proofs.«403143_j42399917146658_3_alg».proof.Proof.Gen.Pre_finite_inputs
import proofs.«403143_j42399917146658_3_alg».proof.Proof.Gen.ReferenceIdeal.Run
import proofs.«403143_j42399917146658_3_alg».proof.Proof.Gen.ReferenceIdeal.Read
import proofs.«403143_j42399917146658_3_alg».proof.Proof.KernelValue
import proofs.«403143_j42399917146658_3_alg».proof.Proof.RefValue
import proofs.«403143_j42399917146658_3_alg».proof.Proof.Finite
import proofs.«403143_j42399917146658_3_alg».proof.Proof.SpecEq
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the first result at tanh of the softmax-weighted value means and the second at std. -/
theorem algebraic : Cert.algebraic_KernelIdeal_ReferenceIdeal := by
  intro m g m' g' hpre hagree
  have hreal : ∀ c : Dev Cert.KernelIdeal.nD, ∃ R : Cert.Spec.RealIn, Cert.KernelIdeal.HostArr.ArgsR m c R :=
    fun c => Cert.Finite.args_real _ _ _ _ _ _ _ (hpre c)
  choose Rc hRc using hreal
  refine ⟨fun c => Cert.KernelIdeal.KValue.G (Rc c), fun c => fun _ => (((Rc c).std : ℝ) : EReal),
    Cert.KernelIdeal.KValue.run m g Rc hRc, ?_⟩
  refine (θ_run Cert.ReferenceIdeal.defs _ _).mono (fun _ h c => ?_) (Cert.ReferenceIdeal.Value.run (F := Ideal) m' g')
  obtain ⟨e0, e1, e2, e3, e4, e5, e6⟩ := hagree c
  have hR := hRc c
  have hR' : Cert.Spec.ArgsReal (Rc c)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)) :=
    ⟨fun i => (congrFun e0 i).trans (hR.obs i), fun i => (congrFun e1 i).trans (hR.std i),
     fun i => (congrFun e2 i).trans (hR.W i), fun i => (congrFun e3 i).trans (hR.b i),
     fun i => (congrFun e4 i).trans (hR.keys i), fun i => (congrFun e5 i).trans (hR.vals i),
     fun i => (congrFun e6 i).trans (hR.lt i)⟩
  refine ⟨(h c).1.trans ?_, (h c).2.1.trans ?_, (h c).2.2⟩
  · rw [Cert.ReferenceIdeal.Read.val_main_v34_eq]
    funext i
    obtain ⟨r, j, rfl⟩ : ∃ (r : Fin 2048) (j : Fin 6), i = ix2 r j := ⟨i 0, i 1, eq_ix2 i⟩
    refine (Cert.ReferenceIdeal.RefValue.out0_apply (Rc c) _ _ _ _ _ _ _ hR' r j).trans ?_
    rw [Cert.Spec.refOut_eq_out (Rc c) r.val j.val j.isLt]
    rfl
  · rw [Cert.ReferenceIdeal.Read.val_main_v38_eq]
    funext i
    exact Cert.ReferenceIdeal.RefValue.out1_apply (Rc c) _ _ _ _ _ _ _ hR' i

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
